-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S32x24 : Shape := ⟨2, ![32, 24]⟩
abbrev S24 : Shape := ⟨1, ![24]⟩
abbrev S24x24 : Shape := ⟨2, ![24, 24]⟩
abbrev S24x12 : Shape := ⟨2, ![24, 12]⟩
abbrev S12 : Shape := ⟨1, ![12]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x24 : S_.BroadcastsInDim S32x24 (![] : Fin 0 → Fin S32x24.rank)
  reducesTo_S32x24_S_d0_1 : S32x24.ReducesTo [0, 1] S_
  bcast_S_S24 : S_.BroadcastsInDim S24 (![] : Fin 0 → Fin S24.rank)
  reducesTo_S24_S_d0 : S24.ReducesTo [0] S_
  bcast_S_S24x24 : S_.BroadcastsInDim S24x24 (![] : Fin 0 → Fin S24x24.rank)
  reducesTo_S24x24_S_d0_1 : S24x24.ReducesTo [0, 1] S_
  bcast_S_S24x12 : S_.BroadcastsInDim S24x12 (![] : Fin 0 → Fin S24x12.rank)
  reducesTo_S24x12_S_d0_1 : S24x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg8 : FVec F S24x12 .f32) (main_arg9 : FVec F S24x12 .f32) (main_arg10 : FVec F S12 .f32) (main_v33 : IVec S_ 1) : IVec S_ 1 :=
  let main_v34 : FVec F S24x12 .f32 := Host.absf main_arg8
  let main_cst_12 : FVec F S_ .f32 := constant S_ .f32 0x7F800000#32
  let main_v35 : FVec F S24x12 .f32 := broadcastInDim S24x12 ![] bcast_S_S24x12 main_cst_12
  let main_v36 : IVec S24x12 1 := cmpf .olt main_v34 main_v35
  let main_c_13 : IVec S_ 1 := constantI S_ 1 1#1
  let main_v37 : IVec S_ 1 := (fun x v => Host.reduce IntOp.andi x v reducesTo_S24x12_S_d0_1 h_S_) main_v36 main_c_13
  let main_v38 : IVec S_ 1 := andi main_v33 main_v37
  let main_v39 : FVec F S24x12 .f32 := Host.absf main_arg9
  let main_cst_14 : FVec F S_ .f32 := constant S_ .f32 0x7F800000#32
  let main_v40 : FVec F S24x12 .f32 := broadcastInDim S24x12 ![] bcast_S_S24x12 main_cst_14
  let main_v41 : IVec S24x12 1 := cmpf .olt main_v39 main_v40
  let main_c_15 : IVec S_ 1 := constantI S_ 1 1#1
  let main_v42 : IVec S_ 1 := (fun x v => Host.reduce IntOp.andi x v reducesTo_S24x12_S_d0_1 h_S_) main_v41 main_c_15
  let main_v43 : IVec S_ 1 := andi main_v38 main_v42
  let main_v44 : FVec F S12 .f32 := Host.absf main_arg10
  let main_cst_16 : FVec F S_ .f32 := constant S_ .f32 0x7F800000#32
  let main_v45 : FVec F S12 .f32 := broadcastInDim S12 ![] bcast_S_S12 main_cst_16
  let main_v46 : IVec S12 1 := cmpf .olt main_v44 main_v45
  let main_c_17 : IVec S_ 1 := constantI S_ 1 1#1
  let main_v47 : IVec S_ 1 := (fun x v => Host.reduce IntOp.andi x v reducesTo_S12_S_d0 h_S_) main_v46 main_c_17
  let main_v48 : IVec S_ 1 := andi main_v43 main_v47
  main_v48

def fn_part1 {F : FTy → Type} [FloatOps F] (main_arg5 : FVec F S24x24 .f32) (main_arg6 : FVec F S24x24 .f32) (main_arg7 : FVec F S24 .f32) (main_arg8 : FVec F S24x12 .f32) (main_arg9 : FVec F S24x12 .f32) (main_arg10 : FVec F S12 .f32) (main_v13 : IVec S_ 1) (main_v16 : IVec S24 1) : IVec S_ 1 :=
  let main_c_5 : IVec S_ 1 := constantI S_ 1 1#1
  let main_v17 : IVec S_ 1 := (fun x v => Host.reduce IntOp.andi x v reducesTo_S24_S_d0 h_S_) main_v16 main_c_5
  let main_v18 : IVec S_ 1 := andi main_v13 main_v17
  let main_v19 : FVec F S24x24 .f32 := Host.absf main_arg5
  let main_cst_6 : FVec F S_ .f32 := constant S_ .f32 0x7F800000#32
  let main_v20 : FVec F S24x24 .f32 := broadcastInDim S24x24 ![] bcast_S_S24x24 main_cst_6
  let main_v21 : IVec S24x24 1 := cmpf .olt main_v19 main_v20
  let main_c_7 : IVec S_ 1 := constantI S_ 1 1#1
  let main_v22 : IVec S_ 1 := (fun x v => Host.reduce IntOp.andi x v reducesTo_S24x24_S_d0_1 h_S_) main_v21 main_c_7
  let main_v23 : IVec S_ 1 := andi main_v18 main_v22
  let main_v24 : FVec F S24x24 .f32 := Host.absf main_arg6
  let main_cst_8 : FVec F S_ .f32 := constant S_ .f32 0x7F800000#32
  let main_v25 : FVec F S24x24 .f32 := broadcastInDim S24x24 ![] bcast_S_S24x24 main_cst_8
  let main_v26 : IVec S24x24 1 := cmpf .olt main_v24 main_v25
  let main_c_9 : IVec S_ 1 := constantI S_ 1 1#1
  let main_v27 : IVec S_ 1 := (fun x v => Host.reduce IntOp.andi x v reducesTo_S24x24_S_d0_1 h_S_) main_v26 main_c_9
  let main_v28 : IVec S_ 1 := andi main_v23 main_v27
  let main_v29 : FVec F S24 .f32 := Host.absf main_arg7
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : IVec S2x3200000 32) (main_arg2 : FVec F S32x24 .f32) (main_arg3 : FVec F S32x24 .f32) (main_arg4 : FVec F S24 .f32) (main_arg5 : FVec F S24x24 .f32) (main_arg6 : FVec F S24x24 .f32) (main_arg7 : FVec F S24 .f32) (main_arg8 : FVec F S24x12 .f32) (main_arg9 : FVec F S24x12 .f32) (main_arg10 : FVec F S12 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x24 .f32 := Host.absf main_arg2
  let main_cst_0 : FVec F S_ .f32 := constant S_ .f32 0x7F800000#32
  let main_v5 : FVec F S32x24 .f32 := broadcastInDim S32x24 ![] bcast_S_S32x24 main_cst_0
  let main_v6 : IVec S32x24 1 := cmpf .olt main_v4 main_v5
  let main_c_1 : IVec S_ 1 := constantI S_ 1 1#1
  let main_v7 : IVec S_ 1 := (fun x v => Host.reduce IntOp.andi x v reducesTo_S32x24_S_d0_1 h_S_) main_v6 main_c_1
  let main_v8 : IVec S_ 1 := andi main_v3 main_v7
  let main_v9 : FVec F S32x24 .f32 := Host.absf main_arg3
  let main_cst_2 : FVec F S_ .f32 := constant S_ .f32 0x7F800000#32
  let main_v10 : FVec F S32x24 .f32 := broadcastInDim S32x24 ![] bcast_S_S32x24 main_cst_2
  let main_v11 : IVec S32x24 1 := cmpf .olt main_v9 main_v10
  let main_c_3 : IVec S_ 1 := constantI S_ 1 1#1
  let main_v12 : IVec S_ 1 := (fun x v => Host.reduce IntOp.andi x v reducesTo_S32x24_S_d0_1 h_S_) main_v11 main_c_3
  let main_v13 : IVec S_ 1 := andi main_v8 main_v12
  let main_v14 : FVec F S24 .f32 := Host.absf main_arg4
  let main_cst_4 : FVec F S_ .f32 := constant S_ .f32 0x7F800000#32
  let main_v15 : FVec F S24 .f32 := broadcastInDim S24 ![] bcast_S_S24 main_cst_4
  let main_v16 : IVec S24 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S2x3200000 : Shape := ⟨2, ![2, 3200000]⟩
abbrev S32x24 : Shape := ⟨2, ![32, 24]⟩
abbrev S24 : Shape := ⟨1, ![24]⟩
abbrev S24x24 : Shape := ⟨2, ![24, 24]⟩
abbrev S24x12 : Shape := ⟨2, ![24, 12]⟩
abbrev S12 : Shape := ⟨1, ![12]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S100000x1 : Shape := ⟨2, ![100000, 1]⟩
abbrev S1x24 : Shape := ⟨2, ![1, 24]⟩
abbrev S100000x24 : Shape := ⟨2, ![100000, 24]⟩
abbrev S5000x32 : Shape := ⟨2, ![5000, 32]⟩
abbrev S5000x24 : Shape := ⟨2, ![5000, 24]⟩
abbrev S3200000x24 : Shape := ⟨2, ![3200000, 24]⟩
abbrev S1x12 : Shape := ⟨2, ![1, 12]⟩
abbrev S100000x12 : Shape := ⟨2, ![100000, 12]⟩
abbrev S5000x12 : Shape := ⟨2, ![5000, 12]⟩

abbrev nBuf : Space → Nat
  | .hbm => 93
  | .vmem => 27
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S32x24, .f32⟩
  | .hbm, ⟨3, _⟩ => ⟨S32x24, .f32⟩
  | .hbm, ⟨4, _⟩ => ⟨S24, .f32⟩
  | .hbm, ⟨5, _⟩ => ⟨S24x24, .f32⟩
  | .hbm, ⟨6, _⟩ => ⟨S24x24, .f32⟩
  | .hbm, ⟨7, _⟩ => ⟨S24, .f32⟩
  | .hbm, ⟨8, _⟩ => ⟨S24x12, .f32⟩
  | .hbm, ⟨9, _⟩ => ⟨S24x12, .f32⟩
  | .hbm, ⟨10, _⟩ => ⟨S12, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S_, .f32⟩
  | .hbm, ⟨29, _⟩ => ⟨S3200000x1, .f32⟩
  | .hbm, ⟨30, _⟩ => ⟨S_, .f32⟩
  | .hbm, ⟨31, _⟩ => ⟨S100000x1, .f32⟩
  | .hbm, ⟨32, _⟩ => ⟨S3200000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x32, .f32⟩
  | .hbm, ⟨38, _⟩ => ⟨S100000x32, .f32⟩
  | .hbm, ⟨39, _⟩ => ⟨S1x24, .f32⟩
  | .hbm, ⟨40, _⟩ => ⟨S100000x24, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x24, .f32⟩
  | .hbm, ⟨50, _⟩ => ⟨S_, .f32⟩
  | .hbm, ⟨51, _⟩ => ⟨S100000x24, .f32⟩
  | .hbm, ⟨52, _⟩ => ⟨S3200000x1, .i32⟩
  | .hbm, ⟨53, _⟩ => ⟨S100000x24, .f32⟩
  | .hbm, ⟨54, _⟩ => ⟨S_, .f32⟩
  | .hbm, ⟨55, _⟩ => ⟨S3200000x1, .f32⟩
  | .hbm, ⟨56, _⟩ => ⟨S_, .f32⟩
  | .hbm, ⟨57, _⟩ => ⟨S100000x1, .f32⟩
  | .hbm, ⟨58, _⟩ => ⟨S3200000x1, .i32⟩
  | .hbm, ⟨59, _⟩ => ⟨S100000x1, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S100000x24, .f32⟩
  | .hbm, ⟨64, _⟩ => ⟨S100000x24, .f32⟩
  | .hbm, ⟨65, _⟩ => ⟨S1x24, .f32⟩
  | .hbm, ⟨66, _⟩ => ⟨S100000x24, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x24, .f32⟩
  | .hbm, ⟨76, _⟩ => ⟨S_, .f32⟩
  | .hbm, ⟨77, _⟩ => ⟨S100000x24, .f32⟩
  | .hbm, ⟨78, _⟩ => ⟨S3200000x1, .i32⟩
  | .hbm, ⟨79, _⟩ => ⟨S100000x24, .f32⟩
  | .hbm, ⟨80, _⟩ => ⟨S_, .f32⟩
  | .hbm, ⟨81, _⟩ => ⟨S3200000x1, .f32⟩
  | .hbm, ⟨82, _⟩ => ⟨S_, .f32⟩
  | .hbm, ⟨83, _⟩ => ⟨S100000x1, .f32⟩
  | .hbm, ⟨84, _⟩ => ⟨S3200000x1, .i32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x24, .f32⟩
  | .hbm, ⟨90, _⟩ => ⟨S100000x24, .f32⟩
  | .hbm, ⟨91, _⟩ => ⟨S1x12, .f32⟩
  | .hbm, ⟨92, _⟩ => ⟨S100000x12, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x24, .f32⟩
  | .local _ .vmem, ⟨5, _⟩ => ⟨S32x24, .f32⟩
  | .local _ .vmem, ⟨6, _⟩ => ⟨S1x24, .f32⟩
  | .local _ .vmem, ⟨7, _⟩ => ⟨S5000x24, .f32⟩
  | .local _ .vmem, ⟨8, _⟩ => ⟨S5000x24, .f32⟩
  | .local _ .vmem, ⟨9, _⟩ => ⟨S5000x24, .f32⟩
  | .local _ .vmem, ⟨10, _⟩ => ⟨S5000x24, .f32⟩
  | .local _ .vmem, ⟨11, _⟩ => ⟨S5000x24, .f32⟩
  | .local _ .vmem, ⟨12, _⟩ => ⟨S5000x24, .f32⟩
  | .local _ .vmem, ⟨13, _⟩ => ⟨S24x24, .f32⟩
  | .local _ .vmem, ⟨14, _⟩ => ⟨S24x24, .f32⟩
  | .local _ .vmem, ⟨15, _⟩ => ⟨S1x24, .f32⟩
  | .local _ .vmem, ⟨16, _⟩ => ⟨S5000x24, .f32⟩
  | .local _ .vmem, ⟨17, _⟩ => ⟨S5000x24, .f32⟩
  | .local _ .vmem, ⟨18, _⟩ => ⟨S5000x24, .f32⟩
  | .local _ .vmem, ⟨19, _⟩ => ⟨S5000x24, .f32⟩
  | .local _ .vmem, ⟨20, _⟩ => ⟨S5000x24, .f32⟩
  | .local _ .vmem, ⟨21, _⟩ => ⟨S5000x24, .f32⟩
  | .local _ .vmem, ⟨22, _⟩ => ⟨S24x12, .f32⟩
  | .local _ .vmem, ⟨23, _⟩ => ⟨S24x12, .f32⟩
  | .local _ .vmem, ⟨24, _⟩ => ⟨S1x12, .f32⟩
  | .local _ .vmem, ⟨25, _⟩ => ⟨S5000x12, .f32⟩
  | .local _ .vmem, ⟨26, _⟩ => ⟨S5000x12, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x24 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S24x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S24x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x24 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x24 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S24x12 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S24x12 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x12 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x12 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  shapeCasts_S24_S1x24 : S24.ShapeCasts S1x24
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x24_S32x24_0_0 : ∀ a, (![0, 0] : Fin 2 → Nat) a + S32x24.size a ≤ S32x24.size a
  h_S32x24 : 0 < S32x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S5000x24 : S1x24.Broadcasts S5000x24
  inb_S5000x24_S5000x24_0_0 : ∀ a, (![0, 0] : Fin 2 → Nat) a + S5000x24.size a ≤ S5000x24.size a
  h_S5000x24 : 0 < S5000x24.numel
  bcast_S_S100000x24 : S_.BroadcastsInDim S100000x24 (![] : Fin 0 → Fin S100000x24.rank)
  bcast_S100000x1_S100000x24_0_1 : S100000x1.BroadcastsInDim S100000x24 (![0, 1] : Fin 2 → Fin S100000x24.rank)
  shapeCasts_S5000x24_S5000x24 : S5000x24.ShapeCasts S5000x24
  inb_S24x24_S24x24_0_0 : ∀ a, (![0, 0] : Fin 2 → Nat) a + S24x24.size a ≤ S24x24.size a
  h_S24x24 : 0 < S24x24.numel
  shapeCasts_S12_S1x12 : S12.ShapeCasts S1x12
  inb_S24x12_S24x12_0_0 : ∀ a, (![0, 0] : Fin 2 → Nat) a + S24x12.size a ≤ S24x12.size a
  h_S24x12 : 0 < S24x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S5000x12 : S1x12.Broadcasts S5000x12
  inb_S5000x12_S5000x12_0_0 : ∀ a, (![0, 0] : Fin 2 → Nat) a + S5000x12.size a ≤ S5000x12.size a
  h_S5000x12 : 0 < S5000x12.numel
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000x1_S3200000x1_S3200000x1_1_0_0_1_wf : ScatterDims.WF S100000x1 S3200000x1 S3200000x1 [1] [0] [0] 1
  dot_S5000x32_S32x24_S5000x24_1_0_0_1_n_n_wf : DotDims.WF S5000x32 S32x24 S5000x24 [1] [0] [0] [1] [] []
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  dot_S5000x24_S24x24_S5000x24_1_0_0_1_n_n_wf : DotDims.WF S5000x24 S24x24 S5000x24 [1] [0] [0] [1] [] []
  dot_S5000x24_S24x12_S5000x12_1_0_0_1_n_n_wf : DotDims.WF S5000x24 S24x12 S5000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x24.size a ≤ S32x24.size a
  hwx0_2 : ∀ i : grid0.Coords, EltTy.bits .f32 = 32 ∨ (Rect.block (s := S32x24) S32x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x24.size a ≤ S32x24.size a
  hwx0_3 : ∀ i : grid0.Coords, EltTy.bits .f32 = 32 ∨ (Rect.block (s := S32x24) S32x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x24.size a ≤ S1x24.size a
  hwx0_4 : ∀ i : grid0.Coords, EltTy.bits .f32 = 32 ∨ (Rect.block (s := S1x24) S1x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x24.size a ≤ S100000x24.size a
  hwx0_5 : ∀ i : grid0.Coords, EltTy.bits .f32 = 32 ∨ (Rect.block (s := S100000x24) S5000x24.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x24.size a ≤ S100000x24.size a
  hwx1_0 : ∀ i : grid1.Coords, EltTy.bits .f32 = 32 ∨ (Rect.block (s := S100000x24) S5000x24.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x24.size a ≤ S100000x24.size a
  hwx1_1 : ∀ i : grid1.Coords, EltTy.bits .f32 = 32 ∨ (Rect.block (s := S100000x24) S5000x24.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S24x24.size a ≤ S24x24.size a
  hwx1_2 : ∀ i : grid1.Coords, EltTy.bits .f32 = 32 ∨ (Rect.block (s := S24x24) S24x24.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S24x24.size a ≤ S24x24.size a
  hwx1_3 : ∀ i : grid1.Coords, EltTy.bits .f32 = 32 ∨ (Rect.block (s := S24x24) S24x24.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x24.size a ≤ S1x24.size a
  hwx1_4 : ∀ i : grid1.Coords, EltTy.bits .f32 = 32 ∨ (Rect.block (s := S1x24) S1x24.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x24.size a ≤ S100000x24.size a
  hwx1_5 : ∀ i : grid1.Coords, EltTy.bits .f32 = 32 ∨ (Rect.block (s := S100000x24) S5000x24.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x24.size a ≤ S100000x24.size a
  hwx2_0 : ∀ i : grid2.Coords, EltTy.bits .f32 = 32 ∨ (Rect.block (s := S100000x24) S5000x24.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x24.size a ≤ S100000x24.size a
  hwx2_1 : ∀ i : grid2.Coords, EltTy.bits .f32 = 32 ∨ (Rect.block (s := S100000x24) S5000x24.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S24x12.size a ≤ S24x12.size a
  hwx2_2 : ∀ i : grid2.Coords, EltTy.bits .f32 = 32 ∨ (Rect.block (s := S24x12) S24x12.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S24x12.size a ≤ S24x12.size a
  hwx2_3 : ∀ i : grid2.Coords, EltTy.bits .f32 = 32 ∨ (Rect.block (s := S24x12) S24x12.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x12.size a ≤ S1x12.size a
  hwx2_4 : ∀ i : grid2.Coords, EltTy.bits .f32 = 32 ∨ (Rect.block (s := S1x12) S1x12.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x12.size a ≤ S100000x12.size a
  hwx2_5 : ∀ i : grid2.Coords, EltTy.bits .f32 = 32 ∨ (Rect.block (s := S100000x12) S5000x12.size (cc2_transform_5 i) (hinb2_5 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S5000x32_S32x24_S5000x24_1_0_0_1_n_n : DotDims S5000x32 S32x24 S5000x24 where
  lhsContracting := [1]
  rhsContracting := [0]
  lhsNonContracting := [0]
  rhsNonContracting := [1]
  lhsBatch := []
  rhsBatch := []
  wf := dot_S5000x32_S32x24_S5000x24_1_0_0_1_n_n_wf
def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S5000x24_S24x24_S5000x24_1_0_0_1_n_n : DotDims S5000x24 S24x24 S5000x24 where
  lhsContracting := [1]
  rhsContracting := [0]
  lhsNonContracting := [0]
  rhsNonContracting := [1]
  lhsBatch := []
  rhsBatch := []
  wf := dot_S5000x24_S24x24_S5000x24_1_0_0_1_n_n_wf
def dot_S5000x24_S24x12_S5000x12_1_0_0_1_n_n : DotDims S5000x24 S24x12 S5000x12 where
  lhsContracting := [1]
  rhsContracting := [0]
  lhsNonContracting := [0]
  rhsNonContracting := [1]
  lhsBatch := []
  rhsBatch := []
  wf := dot_S5000x24_S24x12_S5000x12_1_0_0_1_n_n_wf

abbrev win0_0 : Pipeline.Window sig grid0 :=
  Pipeline.Window.ofSpec (Memref.whole main_v21) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x24.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x24.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x24.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S24x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S24x24.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x24.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x24.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x24.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S24x12.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S24x12.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x12.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x12.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S32x24 : Shape := ⟨2, ![32, 24]⟩
abbrev S24 : Shape := ⟨1, ![24]⟩
abbrev S24x24 : Shape := ⟨2, ![24, 24]⟩
abbrev S24x12 : Shape := ⟨2, ![24, 12]⟩
abbrev S12 : Shape := ⟨1, ![12]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S100000x1 : Shape := ⟨2, ![100000, 1]⟩
abbrev S100000x24 : Shape := ⟨2, ![100000, 24]⟩
abbrev S1x24 : Shape := ⟨2, ![1, 24]⟩
abbrev S3200000x24 : Shape := ⟨2, ![3200000, 24]⟩
abbrev S100000x12 : Shape := ⟨2, ![100000, 12]⟩
abbrev S1x12 : Shape := ⟨2, ![1, 12]⟩

abbrev nBuf : Space → Nat
  | .hbm => 119
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S32x24, .f32⟩
  | .hbm, ⟨3, _⟩ => ⟨S32x24, .f32⟩
  | .hbm, ⟨4, _⟩ => ⟨S24, .f32⟩
  | .hbm, ⟨5, _⟩ => ⟨S24x24, .f32⟩
  | .hbm, ⟨6, _⟩ => ⟨S24x24, .f32⟩
  | .hbm, ⟨7, _⟩ => ⟨S24, .f32⟩
  | .hbm, ⟨8, _⟩ => ⟨S24x12, .f32⟩
  | .hbm, ⟨9, _⟩ => ⟨S24x12, .f32⟩
  | .hbm, ⟨10, _⟩ => ⟨S12, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S_, .f32⟩
  | .hbm, ⟨29, _⟩ => ⟨S3200000x1, .f32⟩
  | .hbm, ⟨30, _⟩ => ⟨S_, .f32⟩
  | .hbm, ⟨31, _⟩ => ⟨S100000x1, .f32⟩
  | .hbm, ⟨32, _⟩ => ⟨S3200000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x32, .f32⟩
  | .hbm, ⟨38, _⟩ => ⟨S100000x32, .f32⟩
  | .hbm, ⟨39, _⟩ => ⟨S100000x24, .f32⟩
  | .hbm, ⟨40, _⟩ => ⟨S100000x24, .f32⟩
  | .hbm, ⟨41, _⟩ => ⟨S100000x24, .f32⟩
  | .hbm, ⟨42, _⟩ => ⟨S1x24, .f32⟩
  | .hbm, ⟨43, _⟩ => ⟨S100000x24, .f32⟩
  | .hbm, ⟨44, _⟩ => ⟨S100000x24, .f32⟩
  | .hbm, ⟨45, _⟩ => ⟨S_, .f32⟩
  | .hbm, ⟨46, _⟩ => ⟨S100000x24, .f32⟩
  | .hbm, ⟨47, _⟩ => ⟨S100000x24, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x24, .f32⟩
  | .hbm, ⟨57, _⟩ => ⟨S_, .f32⟩
  | .hbm, ⟨58, _⟩ => ⟨S100000x24, .f32⟩
  | .hbm, ⟨59, _⟩ => ⟨S3200000x1, .i32⟩
  | .hbm, ⟨60, _⟩ => ⟨S100000x24, .f32⟩
  | .hbm, ⟨61, _⟩ => ⟨S_, .f32⟩
  | .hbm, ⟨62, _⟩ => ⟨S3200000x1, .f32⟩
  | .hbm, ⟨63, _⟩ => ⟨S_, .f32⟩
  | .hbm, ⟨64, _⟩ => ⟨S100000x1, .f32⟩
  | .hbm, ⟨65, _⟩ => ⟨S3200000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x24, .f32⟩
  | .hbm, ⟨71, _⟩ => ⟨S100000x24, .f32⟩
  | .hbm, ⟨72, _⟩ => ⟨S100000x24, .f32⟩
  | .hbm, ⟨73, _⟩ => ⟨S100000x24, .f32⟩
  | .hbm, ⟨74, _⟩ => ⟨S100000x24, .f32⟩
  | .hbm, ⟨75, _⟩ => ⟨S1x24, .f32⟩
  | .hbm, ⟨76, _⟩ => ⟨S100000x24, .f32⟩
  | .hbm, ⟨77, _⟩ => ⟨S100000x24, .f32⟩
  | .hbm, ⟨78, _⟩ => ⟨S_, .f32⟩
  | .hbm, ⟨79, _⟩ => ⟨S100000x24, .f32⟩
  | .hbm, ⟨80, _⟩ => ⟨S100000x24, .f32⟩
  | .hbm, ⟨81, _⟩ => ⟨S_, .i32⟩
  | .hbm, ⟨82, _⟩ => ⟨S3200000, .i32⟩
  | .hbm, ⟨83, _⟩ => ⟨S3200000, .i1⟩
  | .hbm, ⟨84, _⟩ => ⟨S_, .i32⟩
  | .hbm, ⟨85, _⟩ => ⟨S3200000, .i32⟩
  | .hbm, ⟨86, _⟩ => ⟨S3200000, .i32⟩
  | .hbm, ⟨87, _⟩ => ⟨S3200000, .i32⟩
  | .hbm, ⟨88, _⟩ => ⟨S3200000x1, .i32⟩
  | .hbm, ⟨89, _⟩ => ⟨S3200000x24, .f32⟩
  | .hbm, ⟨90, _⟩ => ⟨S_, .f32⟩
  | .hbm, ⟨91, _⟩ => ⟨S100000x24, .f32⟩
  | .hbm, ⟨92, _⟩ => ⟨S3200000x1, .i32⟩
  | .hbm, ⟨93, _⟩ => ⟨S100000x24, .f32⟩
  | .hbm, ⟨94, _⟩ => ⟨S_, .f32⟩
  | .hbm, ⟨95, _⟩ => ⟨S3200000x1, .f32⟩
  | .hbm, ⟨96, _⟩ => ⟨S_, .f32⟩
  | .hbm, ⟨97, _⟩ => ⟨S100000x1, .f32⟩
  | .hbm, ⟨98, _⟩ => ⟨S3200000x1, .i32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x24, .f32⟩
  | .hbm, ⟨104, _⟩ => ⟨S100000x24, .f32⟩
  | .hbm, ⟨105, _⟩ => ⟨S100000x12, .f32⟩
  | .hbm, ⟨106, _⟩ => ⟨S100000x12, .f32⟩
  | .hbm, ⟨107, _⟩ => ⟨S100000x12, .f32⟩
  | .hbm, ⟨108, _⟩ => ⟨S1x12, .f32⟩
  | .hbm, ⟨109, _⟩ => ⟨S100000x12, .f32⟩
  | .hbm, ⟨110, _⟩ => ⟨S100000x12, .f32⟩
  | .hbm, ⟨111, _⟩ => ⟨S100000x12, .f32⟩
  | .hbm, ⟨112, _⟩ => ⟨S100000x12, .f32⟩
  | .hbm, ⟨113, _⟩ => ⟨S_, .f32⟩
  | .hbm, ⟨114, _⟩ => ⟨S100000x12, .f32⟩
  | .hbm, ⟨115, _⟩ => ⟨S100000x12, .f32⟩
  | .hbm, ⟨116, _⟩ => ⟨S_, .f32⟩
  | .hbm, ⟨117, _⟩ => ⟨S100000x12, .f32⟩
  | .hbm, ⟨118, _⟩ => ⟨S100000x12, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  bcast_S_S100000x24 : S_.BroadcastsInDim S100000x24 (![] : Fin 0 → Fin S100000x24.rank)
  bcast_S100000x1_S100000x24_0_1 : S100000x1.BroadcastsInDim S100000x24 (![0, 1] : Fin 2 → Fin S100000x24.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  bcast_S_S100000x12 : S_.BroadcastsInDim S100000x12 (![] : Fin 0 → Fin S100000x12.rank)
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000x1_S3200000x1_S3200000x1_1_0_0_1_wf : ScatterDims.WF S100000x1 S3200000x1 S3200000x1 [1] [0] [0] 1
  dot_S100000x32_S32x24_S100000x24_1_0_0_1_n_n_wf : DotDims.WF S100000x32 S32x24 S100000x24 [1] [0] [0] [1] [] []
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  dot_S100000x24_S24x24_S100000x24_1_0_0_1_n_n_wf : DotDims.WF S100000x24 S24x24 S100000x24 [1] [0] [0] [1] [] []
  dot_S100000x24_S24x12_S100000x12_1_0_0_1_n_n_wf : DotDims.WF S100000x24 S24x12 S100000x12 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x32_S32x24_S100000x24_1_0_0_1_n_n : DotDims S100000x32 S32x24 S100000x24 where
  lhsContracting := [1]
  rhsContracting := [0]
  lhsNonContracting := [0]
  rhsNonContracting := [1]
  lhsBatch := []
  rhsBatch := []
  wf := dot_S100000x32_S32x24_S100000x24_1_0_0_1_n_n_wf
def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S100000x24_S24x24_S100000x24_1_0_0_1_n_n : DotDims S100000x24 S24x24 S100000x24 where
  lhsContracting := [1]
  rhsContracting := [0]
  lhsNonContracting := [0]
  rhsNonContracting := [1]
  lhsBatch := []
  rhsBatch := []
  wf := dot_S100000x24_S24x24_S100000x24_1_0_0_1_n_n_wf
def dot_S100000x24_S24x12_S100000x12_1_0_0_1_n_n : DotDims S100000x24 S24x12 S100000x12 where
  lhsContracting := [1]
  rhsContracting := [0]
  lhsNonContracting := [0]
  rhsNonContracting := [1]
  lhsBatch := []
  rhsBatch := []
  wf := dot_S100000x24_S24x12_S100000x12_1_0_0_1_n_n_wf

class Facts : Prop extends Facts₀ where

variable [Facts]
-- ==== Proof.LibPlainDot.lean ====
/-
  A rows-by-columns product read at an index. For the plain dimension numbers `<[1], [0], [0], [1]>` — an `M×K` operand
  times a `K×N` operand, no batch axis — the element `(p, q)` of the product is the sum over `k : Fin K` of the left
  operand at `(p, k)` times the right operand at `(k, q)`, on the extended reals: for a kernel's `tpu.matmul` into a zero
  accumulator and for the host's `dot_general` alike. The contraction index of the dimension numbers is a one-axis
  shape; `contrEquiv1` identifies it with `Fin K`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat} {φ₁ φ₂ : FTy}

/-- The sum over the contraction index of `DotDims.plain M K N` at the output index `(p, q)`, re-indexed over `Fin K`:
    the left operand is read along row `p`, the right operand down column `q`. -/
theorem sum_contr (l : FVec Ideal ⟨2, ![M, K]⟩ φ₁) (r : FVec Ideal ⟨2, ![K, N]⟩ φ₂) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-- A kernel's matrix product into the zero accumulator, at `(p, q)`. -/
theorem matmul_zero_apply (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_contr l r p q)

/-- The host's `dot_general`, at `(p, q)`. -/
theorem dotGeneral_apply (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (sum_contr l r p q)

end Cert.Lib.PlainDot

end
-- ==== Proof.SageSpec.lean ====
/-
  One layer of the network, on the extended reals. A GraphSAGE layer with mean aggregation is, row by row,
      out[r, q] = act (∑ₖ agg[r, k] · Wl[k, q] + ∑ₖ h[r, k] · Wr[k, q] + b[q]),
  where `agg` is the mean of the neighbours' rows of `h` (computed by gather, segment sum and a division by the
  neighbour count, the same operations in both programs) and `act` is `max · 0` in the two hidden layers and the
  logistic function in the last. Here the dense half — the two products, the bias, the activation — is stated once,
  as a function of the five arrays, over any extents `M` (rows), `K` (features in), `N` (features out).
-/
import Idealize.ShloMosaic.Lib.ValueIdx
import Idealize.ShloMosaic.PureOps.Ideal

noncomputable section

namespace Cert.Sage

open Idealize.ShloMosaic Idealize.ShloMosaic.ValueIdx

variable {M K N : Nat}

/-- Row `p` of `a · wl + x · wr`, at column `q`, plus the bias entry `β`. -/
def affineAt (a x : (⟨2, ![M, K]⟩ : Shape).Idx → EReal) (wl wr : (⟨2, ![K, N]⟩ : Shape).Idx → EReal) (β : EReal)
    (p : Fin M) (q : Fin N) : EReal :=
  (∑ k : Fin K, a (ix2 p k) * wl (ix2 k q)) + (∑ k : Fin K, x (ix2 p k) * wr (ix2 k q)) + β

/-- The hidden layers' activation: the maximum with zero, the zero written as the word both programs print. -/
def reluAct (v : EReal) : EReal := max v (Ideal.ofBits .f32 0x00000000#32)

/-- The last layer's activation: the logistic function `1 / (1 + e⁻ᵛ)`. -/
def logisticAct (v : EReal) : EReal := Ideal.logistic v

/-- A layer's dense half under the activation `act`: `act (a · wl + x · wr + b)`, element by element. -/
def layer (act : EReal → EReal) (a x : (⟨2, ![M, K]⟩ : Shape).Idx → EReal) (wl wr : (⟨2, ![K, N]⟩ : Shape).Idx → EReal)
    (b : (⟨1, ![N]⟩ : Shape).Idx → EReal) : (⟨2, ![M, N]⟩ : Shape).Idx → EReal :=
  fun i => act (affineAt a x wl wr (b (ix1 (i 1))) (i 0) (i 1))

theorem layer_apply (act : EReal → EReal) (a x : (⟨2, ![M, K]⟩ : Shape).Idx → EReal) (wl wr : (⟨2, ![K, N]⟩ : Shape).Idx → EReal)
    (b : (⟨1, ![N]⟩ : Shape).Idx → EReal) (p : Fin M) (q : Fin N) :
    layer act a x wl wr b (ix2 p q) = act (affineAt a x wl wr (b (ix1 q)) p q) := rfl

end Cert.Sage

end
-- ==== Proof.Region0.lean ====
/-
  The first layer's kernel region, as a value. The region runs its body at 20 grid points; at point `t` the body is given
  rows `5000·t … 5000·t + 4999` of the aggregated features and of the layer's input, the two weight matrices and the bias
  row whole, and writes back rows `5000·t … 5000·t + 4999` of the output. What it writes is, element by element, the
  dense half of the layer (`Cert.Sage.layer`) of the arrays the region finds at entry: a row of the output depends only on
  the same row of the two row-blocked inputs, so block `t` of the layer of the whole arrays is the body's value on the
  blocks at `t`; the 20 blocks tile the 100000 rows, so the output array after the region is the layer of the whole arrays.
-/
import proofs.«146685_j32375463477418_1_alg».proof.Proof.Gen.KernelIdeal.Frame
import proofs.«146685_j32375463477418_1_alg».proof.Proof.LibPlainDot
import proofs.«146685_j32375463477418_1_alg».proof.Proof.SageSpec
import Idealize.ShloMosaic.Lib.ValueLayout
import Idealize.ShloMosaic.Lib.Pipeline.Value

noncomputable section

namespace Cert.Sage.Region0

open Idealize.ShloMosaic Idealize.ShloMosaic.TcCoe Idealize.ShloMosaic.ValueIdx Idealize.SL.Sem Cert.KernelIdeal Cert.KernelIdeal.Gen
open Idealize.ShloMosaic.Pipeline (Dat)

/-- The body's one stored value at `(p, q)` of its block: the two block products into a zero accumulator are sums over the
    contracted axis, the changes of format to bf16 are the identity on the extended reals, the bias block's one row is read
    at column `q`, and the activation is applied to the sum. -/
theorem pay_apply (a x : FVec Ideal S5000x32 .f32) (wl wr : FVec Ideal S32x24 .f32) (b : FVec Ideal S1x24 .f32)
    (p : Fin 5000) (q : Fin 24) :
    k0_pay1 (F := Ideal) a x wl wr b (ix2 p q) = Cert.Sage.reluAct (Cert.Sage.affineAt a x wl wr (b (ix2 (0 : Fin 1) q)) p q) := by
  have hm (u : FVec Ideal S5000x32 .bf16) (w : FVec Ideal S32x24 .bf16) :
      FloatOps.matmul dot_S5000x32_S32x24_S5000x24_1_0_0_1_n_n none u w (constant S5000x24 .f32 0x00000000#32) (ix2 p q)
        = ∑ k : Fin 32, u (ix2 p k) * w (ix2 k q) := Cert.Lib.PlainDot.matmul_zero_apply none u w p q
  unfold k0_pay1
  simp only [logistic, maximumf_apply, addf_apply, matmul, hm, truncf_apply, shapeCast_self, broadcast_apply, broadcastTo_1b_ab_apply]
  rfl

/-- The six windows' block indices at a grid point: the row-blocked windows (aggregate, input, output) are at block row
    `t`, the weights and the bias at block `(0, 0)`. Decided over the 20 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `5000·t + p` of the array. -/
theorem row_lt (t : Fin cfg0.N) (p : Fin 5000) : 5000 * t.val + p.val < 100000 := by
  have ht : t.val < 20 := N_0 ▸ t.isLt
  have hp := p.isLt
  omega

/-- Where element `(p, q)` of the output's block at `t` sits in the output array. -/
theorem emb_out (t : Fin cfg0.N) (p : Fin 5000) (q : Fin 24) :
    ((cfg0.win 5).blk t).view.emb (ix2 p q) = ix2 ⟨5000 * t.val + p.val, row_lt t p⟩ q := by
  obtain ⟨-, -, -, -, -, -, -, -, -, -, e50, e51⟩ := idx_facts t
  funext a; apply Fin.ext
  match a with
  | ⟨0, _⟩ => show win0_5.index t (0 : Fin 2) * 5000 + 1 * p.val = 5000 * t.val + p.val; omega
  | ⟨1, _⟩ => show win0_5.index t (1 : Fin 2) * 24 + 1 * q.val = q.val; omega

/-- The aggregate's block at `t`, read at `(p, k)`: row `5000·t + p` of the array the region finds. -/
theorem read_agg (c : Dev nD) (t : Fin cfg0.N) (p : Fin 5000) (k : Fin 32) :
    iblk0 V c 0 t (ix2 p k) = V c main_v21 (ix2 ⟨5000 * t.val + p.val, row_lt t p⟩ k) := by
  obtain ⟨e00, e01, -⟩ := idx_facts t
  show V c main_v21 (((cfg0.win 0).blk t).view.emb (ix2 p k)) = _
  refine congrArg (V c main_v21) ?_
  funext a; apply Fin.ext
  match a with
  | ⟨0, _⟩ => show win0_0.index t (0 : Fin 2) * 5000 + 1 * p.val = 5000 * t.val + p.val; omega
  | ⟨1, _⟩ => show win0_0.index t (1 : Fin 2) * 32 + 1 * k.val = k.val; omega

/-- The layer input's block at `t`, read at `(p, k)`. -/
theorem read_in (c : Dev nD) (t : Fin cfg0.N) (p : Fin 5000) (k : Fin 32) :
    iblk0 V c 1 t (ix2 p k) = V c main_arg0 (ix2 ⟨5000 * t.val + p.val, row_lt t p⟩ k) := by
  obtain ⟨-, -, e10, e11, -⟩ := idx_facts t
  show V c main_arg0 (((cfg0.win 1).blk t).view.emb (ix2 p k)) = _
  refine congrArg (V c main_arg0) ?_
  funext a; apply Fin.ext
  match a with
  | ⟨0, _⟩ => show win0_1.index t (0 : Fin 2) * 5000 + 1 * p.val = 5000 * t.val + p.val; omega
  | ⟨1, _⟩ => show win0_1.index t (1 : Fin 2) * 32 + 1 * k.val = k.val; omega

/-- The neighbour weights' block is the whole matrix at every point. -/
theorem read_wl (c : Dev nD) (t : Fin cfg0.N) (k : Fin 32) (q : Fin 24) :
    iblk0 V c 2 t (ix2 k q) = V c main_arg2 (ix2 k q) := by
  obtain ⟨-, -, -, -, e20, e21, -⟩ := idx_facts t
  show V c main_arg2 (((cfg0.win 2).blk t).view.emb (ix2 k q)) = _
  refine congrArg (V c main_arg2) ?_
  funext a; apply Fin.ext
  match a with
  | ⟨0, _⟩ => show win0_2.index t (0 : Fin 2) * 32 + 1 * k.val = k.val; omega
  | ⟨1, _⟩ => show win0_2.index t (1 : Fin 2) * 24 + 1 * q.val = q.val; omega

/-- The root weights' block is the whole matrix at every point. -/
theorem read_wr (c : Dev nD) (t : Fin cfg0.N) (k : Fin 32) (q : Fin 24) :
    iblk0 V c 3 t (ix2 k q) = V c main_arg3 (ix2 k q) := by
  obtain ⟨-, -, -, -, -, -, e30, e31, -⟩ := idx_facts t
  show V c main_arg3 (((cfg0.win 3).blk t).view.emb (ix2 k q)) = _
  refine congrArg (V c main_arg3) ?_
  funext a; apply Fin.ext
  match a with
  | ⟨0, _⟩ => show win0_3.index t (0 : Fin 2) * 32 + 1 * k.val = k.val; omega
  | ⟨1, _⟩ => show win0_3.index t (1 : Fin 2) * 24 + 1 * q.val = q.val; omega

/-- The bias block is the whole one-row array at every point. -/
theorem read_bias (c : Dev nD) (t : Fin cfg0.N) (q : Fin 24) :
    iblk0 V c 4 t (ix2 (0 : Fin 1) q) = V c main_v22 (ix2 (0 : Fin 1) q) := by
  obtain ⟨-, -, -, -, -, -, -, -, e40, e41, -⟩ := idx_facts t
  show V c main_v22 (((cfg0.win 4).blk t).view.emb (ix2 (0 : Fin 1) q)) = _
  refine congrArg (V c main_v22) ?_
  funext a; apply Fin.ext
  match a with
  | ⟨0, _⟩ => show win0_4.index t (0 : Fin 2) * 1 + 1 * 0 = 0; omega
  | ⟨1, _⟩ => show win0_4.index t (1 : Fin 2) * 24 + 1 * q.val = q.val; omega

/-- The layer's dense half of the arrays the region finds, the bias given as the vector `b` whose one-row form the
    region's bias array is. -/
abbrev G (c : Dev nD) (b : FVec Ideal S24 .f32) : S100000x24.Idx → EReal :=
  Cert.Sage.layer Cert.Sage.reluAct (V c main_v21) (V c main_arg0) (V c main_arg2) (V c main_arg3) b

/-- What point `t` writes back is block `t` of `G`: the body's value at `(p, q)` is the activation of row `p` of the
    blocks' affine form, and each block read is the array read at row `5000·t + p` (or at the whole weight or bias). -/
theorem flushed_eq (c : Dev nD) (b : FVec Ideal S24 .f32) (hb : ∀ q : Fin 24, V c main_v22 (ix2 (0 : Fin 1) q) = b (ix1 q)) (t : Fin cfg0.N) :
    (dat0 V c).flushed 5 t = ((cfg0.win 5).blk t).view.read (Elt Ideal) (G V c b) := by
  show (cfg0.win 5).cut (grid0.coords t) ((dat0 V c).after 5 t) = _
  rw [after0_5]
  unfold out0_5
  rw [View.canon_unit_zero hz]
  simp only [View.ld_unit_zero (S := S5000x32) hz, View.ld_unit_zero (S := S32x24) hz, View.ld_unit_zero (S := S1x24) hz]
  funext j
  obtain ⟨p, q, rfl⟩ : ∃ (p : Fin 5000) (q : Fin 24), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = G V c b (((cfg0.win 5).blk t).view.emb (ix2 p q))
  rw [emb_out t p q]
  refine (pay_apply (iblk0 V c 0 t) (iblk0 V c 1 t) (iblk0 V c 2 t) (iblk0 V c 3 t) (iblk0 V c 4 t) p q).trans ?_
  show Cert.Sage.reluAct (Cert.Sage.affineAt (iblk0 V c 0 t) (iblk0 V c 1 t) (iblk0 V c 2 t) (iblk0 V c 3 t) (iblk0 V c 4 t (ix2 (0 : Fin 1) q)) p q)
    = Cert.Sage.reluAct (Cert.Sage.affineAt (V c main_v21) (V c main_arg0) (V c main_arg2) (V c main_arg3) (b (ix1 q)) ⟨5000 * t.val + p.val, row_lt t p⟩ q)
  unfold Cert.Sage.affineAt
  simp only [read_agg V c t, read_in V c t, read_wl V c t, read_wr V c t, read_bias V c t, hb]

/-- An index is in the output's block at `t` iff each coordinate is in the block's range on its axis. -/
theorem mem_blk (t : Fin cfg0.N) (i : S100000x24.Idx) :
    i ∈ ((cfg0.win 5).blk t).view.set ↔ ∀ a : Fin 2, win0_5.index t a * S5000x24.size a ≤ (i a).val ∧ (i a).val < win0_5.index t a * S5000x24.size a + S5000x24.size a := by
  show i ∈ ((View.whole main_v23).slice (win0_5.rect t)).set ↔ _
  rw [View.set_slice_whole, Rect.mem_set_unit]
  exact Iff.rfl

/-- Every index of the output array is in the block of the point `row / 5000`, which is written back. -/
theorem cover (i : S100000x24.Idx) : ∃ t : Fin cfg0.N, (cfg0.win 5).flush t = true ∧ i ∈ ((cfg0.win 5).blk t).view.set := by
  have hi0 : (i 0).val < 100000 := (i 0).isLt
  have hi1 : (i 1).val < 24 := (i 1).isLt
  have hlt : (i 0).val / 5000 < cfg0.N := by rw [show cfg0.N = 20 from N_0]; omega
  obtain ⟨-, -, -, -, -, -, -, -, -, -, e50, e51⟩ := idx_facts ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_blk]
  intro a
  match a with
  | ⟨0, _⟩ => show win0_5.index ⟨(i 0).val / 5000, hlt⟩ (0 : Fin 2) * 5000 ≤ (i 0).val ∧ (i 0).val < win0_5.index ⟨(i 0).val / 5000, hlt⟩ (0 : Fin 2) * 5000 + 5000; omega
  | ⟨1, _⟩ => show win0_5.index ⟨(i 0).val / 5000, hlt⟩ (1 : Fin 2) * 24 ≤ (i 1).val ∧ (i 1).val < win0_5.index ⟨(i 0).val / 5000, hlt⟩ (1 : Fin 2) * 24 + 24; omega

/-- The output array after the region is the layer's dense half of the arrays the region finds. -/
theorem out_eq (c : Dev nD) (b : FVec Ideal S24 .f32) (hb : ∀ q : Fin 24, V c main_v22 (ix2 (0 : Fin 1) q) = b (ix1 q)) :
    (dat0 V c).arrAt 5 cfg0.N = G V c b :=
  (dat0 V c).arrAt_eq_of_cover 5 (G V c b) (fun t _ => flushed_eq V c b hb t) cover

end Cert.Sage.Region0

end
-- ==== Proof.Region1.lean ====
/-
  The second layer's kernel region, as a value. The region runs its body at 20 grid points; at point `t` the body is given
  rows `5000·t … 5000·t + 4999` of the aggregated features and of the layer's input, the two weight matrices and the bias
  row whole, and writes back rows `5000·t … 5000·t + 4999` of the output. What it writes is, element by element, the
  dense half of the layer (`Cert.Sage.layer`) of the arrays the region finds at entry: a row of the output depends only on
  the same row of the two row-blocked inputs, so block `t` of the layer of the whole arrays is the body's value on the
  blocks at `t`; the 20 blocks tile the 100000 rows, so the output array after the region is the layer of the whole arrays.
-/
import proofs.«146685_j32375463477418_1_alg».proof.Proof.Gen.KernelIdeal.Frame
import proofs.«146685_j32375463477418_1_alg».proof.Proof.LibPlainDot
import proofs.«146685_j32375463477418_1_alg».proof.Proof.SageSpec
import Idealize.ShloMosaic.Lib.ValueLayout
import Idealize.ShloMosaic.Lib.Pipeline.Value

noncomputable section

namespace Cert.Sage.Region1

open Idealize.ShloMosaic Idealize.ShloMosaic.TcCoe Idealize.ShloMosaic.ValueIdx Idealize.SL.Sem Cert.KernelIdeal Cert.KernelIdeal.Gen
open Idealize.ShloMosaic.Pipeline (Dat)

/-- The body's one stored value at `(p, q)` of its block: the two block products into a zero accumulator are sums over the
    contracted axis, the changes of format to bf16 are the identity on the extended reals, the bias block's one row is read
    at column `q`, and the activation is applied to the sum. -/
theorem pay_apply (a x : FVec Ideal S5000x24 .f32) (wl wr : FVec Ideal S24x24 .f32) (b : FVec Ideal S1x24 .f32)
    (p : Fin 5000) (q : Fin 24) :
    k1_pay1 (F := Ideal) a x wl wr b (ix2 p q) = Cert.Sage.reluAct (Cert.Sage.affineAt a x wl wr (b (ix2 (0 : Fin 1) q)) p q) := by
  have hm (u : FVec Ideal S5000x24 .bf16) (w : FVec Ideal S24x24 .bf16) :
      FloatOps.matmul dot_S5000x24_S24x24_S5000x24_1_0_0_1_n_n none u w (constant S5000x24 .f32 0x00000000#32) (ix2 p q)
        = ∑ k : Fin 24, u (ix2 p k) * w (ix2 k q) := Cert.Lib.PlainDot.matmul_zero_apply none u w p q
  unfold k1_pay1
  simp only [logistic, maximumf_apply, addf_apply, matmul, hm, truncf_apply, shapeCast_self, broadcast_apply, broadcastTo_1b_ab_apply]
  rfl

/-- The six windows' block indices at a grid point: the row-blocked windows (aggregate, input, output) are at block row
    `t`, the weights and the bias at block `(0, 0)`. Decided over the 20 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `5000·t + p` of the array. -/
theorem row_lt (t : Fin cfg1.N) (p : Fin 5000) : 5000 * t.val + p.val < 100000 := by
  have ht : t.val < 20 := N_1 ▸ t.isLt
  have hp := p.isLt
  omega

/-- Where element `(p, q)` of the output's block at `t` sits in the output array. -/
theorem emb_out (t : Fin cfg1.N) (p : Fin 5000) (q : Fin 24) :
    ((cfg1.win 5).blk t).view.emb (ix2 p q) = ix2 ⟨5000 * t.val + p.val, row_lt t p⟩ q := by
  obtain ⟨-, -, -, -, -, -, -, -, -, -, e50, e51⟩ := idx_facts t
  funext a; apply Fin.ext
  match a with
  | ⟨0, _⟩ => show win1_5.index t (0 : Fin 2) * 5000 + 1 * p.val = 5000 * t.val + p.val; omega
  | ⟨1, _⟩ => show win1_5.index t (1 : Fin 2) * 24 + 1 * q.val = q.val; omega

/-- The aggregate's block at `t`, read at `(p, k)`: row `5000·t + p` of the array the region finds. -/
theorem read_agg (c : Dev nD) (t : Fin cfg1.N) (p : Fin 5000) (k : Fin 24) :
    iblk1 V c 0 t (ix2 p k) = V c main_v41 (ix2 ⟨5000 * t.val + p.val, row_lt t p⟩ k) := by
  obtain ⟨e00, e01, -⟩ := idx_facts t
  show V c main_v41 (((cfg1.win 0).blk t).view.emb (ix2 p k)) = _
  refine congrArg (V c main_v41) ?_
  funext a; apply Fin.ext
  match a with
  | ⟨0, _⟩ => show win1_0.index t (0 : Fin 2) * 5000 + 1 * p.val = 5000 * t.val + p.val; omega
  | ⟨1, _⟩ => show win1_0.index t (1 : Fin 2) * 24 + 1 * k.val = k.val; omega

/-- The layer input's block at `t`, read at `(p, k)`. -/
theorem read_in (c : Dev nD) (t : Fin cfg1.N) (p : Fin 5000) (k : Fin 24) :
    iblk1 V c 1 t (ix2 p k) = V c main_v23 (ix2 ⟨5000 * t.val + p.val, row_lt t p⟩ k) := by
  obtain ⟨-, -, e10, e11, -⟩ := idx_facts t
  show V c main_v23 (((cfg1.win 1).blk t).view.emb (ix2 p k)) = _
  refine congrArg (V c main_v23) ?_
  funext a; apply Fin.ext
  match a with
  | ⟨0, _⟩ => show win1_1.index t (0 : Fin 2) * 5000 + 1 * p.val = 5000 * t.val + p.val; omega
  | ⟨1, _⟩ => show win1_1.index t (1 : Fin 2) * 24 + 1 * k.val = k.val; omega

/-- The neighbour weights' block is the whole matrix at every point. -/
theorem read_wl (c : Dev nD) (t : Fin cfg1.N) (k : Fin 24) (q : Fin 24) :
    iblk1 V c 2 t (ix2 k q) = V c main_arg5 (ix2 k q) := by
  obtain ⟨-, -, -, -, e20, e21, -⟩ := idx_facts t
  show V c main_arg5 (((cfg1.win 2).blk t).view.emb (ix2 k q)) = _
  refine congrArg (V c main_arg5) ?_
  funext a; apply Fin.ext
  match a with
  | ⟨0, _⟩ => show win1_2.index t (0 : Fin 2) * 24 + 1 * k.val = k.val; omega
  | ⟨1, _⟩ => show win1_2.index t (1 : Fin 2) * 24 + 1 * q.val = q.val; omega

/-- The root weights' block is the whole matrix at every point. -/
theorem read_wr (c : Dev nD) (t : Fin cfg1.N) (k : Fin 24) (q : Fin 24) :
    iblk1 V c 3 t (ix2 k q) = V c main_arg6 (ix2 k q) := by
  obtain ⟨-, -, -, -, -, -, e30, e31, -⟩ := idx_facts t
  show V c main_arg6 (((cfg1.win 3).blk t).view.emb (ix2 k q)) = _
  refine congrArg (V c main_arg6) ?_
  funext a; apply Fin.ext
  match a with
  | ⟨0, _⟩ => show win1_3.index t (0 : Fin 2) * 24 + 1 * k.val = k.val; omega
  | ⟨1, _⟩ => show win1_3.index t (1 : Fin 2) * 24 + 1 * q.val = q.val; omega

/-- The bias block is the whole one-row array at every point. -/
theorem read_bias (c : Dev nD) (t : Fin cfg1.N) (q : Fin 24) :
    iblk1 V c 4 t (ix2 (0 : Fin 1) q) = V c main_v42 (ix2 (0 : Fin 1) q) := by
  obtain ⟨-, -, -, -, -, -, -, -, e40, e41, -⟩ := idx_facts t
  show V c main_v42 (((cfg1.win 4).blk t).view.emb (ix2 (0 : Fin 1) q)) = _
  refine congrArg (V c main_v42) ?_
  funext a; apply Fin.ext
  match a with
  | ⟨0, _⟩ => show win1_4.index t (0 : Fin 2) * 1 + 1 * 0 = 0; omega
  | ⟨1, _⟩ => show win1_4.index t (1 : Fin 2) * 24 + 1 * q.val = q.val; omega

/-- The layer's dense half of the arrays the region finds, the bias given as the vector `b` whose one-row form the
    region's bias array is. -/
abbrev G (c : Dev nD) (b : FVec Ideal S24 .f32) : S100000x24.Idx → EReal :=
  Cert.Sage.layer Cert.Sage.reluAct (V c main_v41) (V c main_v23) (V c main_arg5) (V c main_arg6) b

/-- What point `t` writes back is block `t` of `G`: the body's value at `(p, q)` is the activation of row `p` of the
    blocks' affine form, and each block read is the array read at row `5000·t + p` (or at the whole weight or bias). -/
theorem flushed_eq (c : Dev nD) (b : FVec Ideal S24 .f32) (hb : ∀ q : Fin 24, V c main_v42 (ix2 (0 : Fin 1) q) = b (ix1 q)) (t : Fin cfg1.N) :
    (dat1 V c).flushed 5 t = ((cfg1.win 5).blk t).view.read (Elt Ideal) (G V c b) := by
  show (cfg1.win 5).cut (grid1.coords t) ((dat1 V c).after 5 t) = _
  rw [after1_5]
  unfold out1_5
  rw [View.canon_unit_zero hz]
  simp only [View.ld_unit_zero (S := S5000x24) hz, View.ld_unit_zero (S := S24x24) hz, View.ld_unit_zero (S := S1x24) hz]
  funext j
  obtain ⟨p, q, rfl⟩ : ∃ (p : Fin 5000) (q : Fin 24), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G V c b (((cfg1.win 5).blk t).view.emb (ix2 p q))
  rw [emb_out t p q]
  refine (pay_apply (iblk1 V c 0 t) (iblk1 V c 1 t) (iblk1 V c 2 t) (iblk1 V c 3 t) (iblk1 V c 4 t) p q).trans ?_
  show Cert.Sage.reluAct (Cert.Sage.affineAt (iblk1 V c 0 t) (iblk1 V c 1 t) (iblk1 V c 2 t) (iblk1 V c 3 t) (iblk1 V c 4 t (ix2 (0 : Fin 1) q)) p q)
    = Cert.Sage.reluAct (Cert.Sage.affineAt (V c main_v41) (V c main_v23) (V c main_arg5) (V c main_arg6) (b (ix1 q)) ⟨5000 * t.val + p.val, row_lt t p⟩ q)
  unfold Cert.Sage.affineAt
  simp only [read_agg V c t, read_in V c t, read_wl V c t, read_wr V c t, read_bias V c t, hb]

/-- An index is in the output's block at `t` iff each coordinate is in the block's range on its axis. -/
theorem mem_blk (t : Fin cfg1.N) (i : S100000x24.Idx) :
    i ∈ ((cfg1.win 5).blk t).view.set ↔ ∀ a : Fin 2, win1_5.index t a * S5000x24.size a ≤ (i a).val ∧ (i a).val < win1_5.index t a * S5000x24.size a + S5000x24.size a := by
  show i ∈ ((View.whole main_v43).slice (win1_5.rect t)).set ↔ _
  rw [View.set_slice_whole, Rect.mem_set_unit]
  exact Iff.rfl

/-- Every index of the output array is in the block of the point `row / 5000`, which is written back. -/
theorem cover (i : S100000x24.Idx) : ∃ t : Fin cfg1.N, (cfg1.win 5).flush t = true ∧ i ∈ ((cfg1.win 5).blk t).view.set := by
  have hi0 : (i 0).val < 100000 := (i 0).isLt
  have hi1 : (i 1).val < 24 := (i 1).isLt
  have hlt : (i 0).val / 5000 < cfg1.N := by rw [show cfg1.N = 20 from N_1]; omega
  obtain ⟨-, -, -, -, -, -, -, -, -, -, e50, e51⟩ := idx_facts ⟨(i 0).val / 5000, hlt⟩
  have e50' : win1_5.index ⟨(i 0).val / 5000, hlt⟩ (0 : Fin 2) = (i 0).val / 5000 := e50
  refine ⟨⟨(i 0).val / 5000, hlt⟩, flush1_5 _, ?_⟩
  rw [mem_blk]
  intro a
  match a with
  | ⟨0, _⟩ => show win1_5.index ⟨(i 0).val / 5000, hlt⟩ (0 : Fin 2) * 5000 ≤ (i 0).val ∧ (i 0).val < win1_5.index ⟨(i 0).val / 5000, hlt⟩ (0 : Fin 2) * 5000 + 5000; omega
  | ⟨1, _⟩ => show win1_5.index ⟨(i 0).val / 5000, hlt⟩ (1 : Fin 2) * 24 ≤ (i 1).val ∧ (i 1).val < win1_5.index ⟨(i 0).val / 5000, hlt⟩ (1 : Fin 2) * 24 + 24; omega

/-- The output array after the region is the layer's dense half of the arrays the region finds. -/
theorem out_eq (c : Dev nD) (b : FVec Ideal S24 .f32) (hb : ∀ q : Fin 24, V c main_v42 (ix2 (0 : Fin 1) q) = b (ix1 q)) :
    (dat1 V c).arrAt 5 cfg1.N = G V c b :=
  (dat1 V c).arrAt_eq_of_cover 5 (G V c b) (fun t _ => flushed_eq V c b hb t) cover

end Cert.Sage.Region1

end
-- ==== Proof.Region2.lean ====
/-
  The third layer's kernel region, as a value. The region runs its body at 20 grid points; at point `t` the body is given
  rows `5000·t … 5000·t + 4999` of the aggregated features and of the layer's input, the two weight matrices and the bias
  row whole, and writes back rows `5000·t … 5000·t + 4999` of the output. What it writes is, element by element, the
  dense half of the layer (`Cert.Sage.layer`) of the arrays the region finds at entry: a row of the output depends only on
  the same row of the two row-blocked inputs, so block `t` of the layer of the whole arrays is the body's value on the
  blocks at `t`; the 20 blocks tile the 100000 rows, so the output array after the region is the layer of the whole arrays.
-/
import proofs.«146685_j32375463477418_1_alg».proof.Proof.Gen.KernelIdeal.Frame
import proofs.«146685_j32375463477418_1_alg».proof.Proof.LibPlainDot
import proofs.«146685_j32375463477418_1_alg».proof.Proof.SageSpec
import Idealize.ShloMosaic.Lib.ValueLayout
import Idealize.ShloMosaic.Lib.Pipeline.Value

noncomputable section

namespace Cert.Sage.Region2

open Idealize.ShloMosaic Idealize.ShloMosaic.TcCoe Idealize.ShloMosaic.ValueIdx Idealize.SL.Sem Cert.KernelIdeal Cert.KernelIdeal.Gen
open Idealize.ShloMosaic.Pipeline (Dat)

/-- The body's one stored value at `(p, q)` of its block: the two block products into a zero accumulator are sums over the
    contracted axis, the changes of format to bf16 are the identity on the extended reals, the bias block's one row is read
    at column `q`, and the activation is applied to the sum. -/
theorem pay_apply (a x : FVec Ideal S5000x24 .f32) (wl wr : FVec Ideal S24x12 .f32) (b : FVec Ideal S1x12 .f32)
    (p : Fin 5000) (q : Fin 12) :
    k2_pay1 (F := Ideal) a x wl wr b (ix2 p q) = Cert.Sage.logisticAct (Cert.Sage.affineAt a x wl wr (b (ix2 (0 : Fin 1) q)) p q) := by
  have hm (u : FVec Ideal S5000x24 .bf16) (w : FVec Ideal S24x12 .bf16) :
      FloatOps.matmul dot_S5000x24_S24x12_S5000x12_1_0_0_1_n_n none u w (constant S5000x12 .f32 0x00000000#32) (ix2 p q)
        = ∑ k : Fin 24, u (ix2 p k) * w (ix2 k q) := Cert.Lib.PlainDot.matmul_zero_apply none u w p q
  unfold k2_pay1
  simp only [logistic, maximumf_apply, addf_apply, matmul, hm, truncf_apply, shapeCast_self, broadcast_apply, broadcastTo_1b_ab_apply]
  rfl

/-- The six windows' block indices at a grid point: the row-blocked windows (aggregate, input, output) are at block row
    `t`, the weights and the bias at block `(0, 0)`. Decided over the 20 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `5000·t + p` of the array. -/
theorem row_lt (t : Fin cfg2.N) (p : Fin 5000) : 5000 * t.val + p.val < 100000 := by
  have ht : t.val < 20 := N_2 ▸ t.isLt
  have hp := p.isLt
  omega

/-- Where element `(p, q)` of the output's block at `t` sits in the output array. -/
theorem emb_out (t : Fin cfg2.N) (p : Fin 5000) (q : Fin 12) :
    ((cfg2.win 5).blk t).view.emb (ix2 p q) = ix2 ⟨5000 * t.val + p.val, row_lt t p⟩ q := by
  obtain ⟨-, -, -, -, -, -, -, -, -, -, e50, e51⟩ := idx_facts t
  funext a; apply Fin.ext
  match a with
  | ⟨0, _⟩ => show win2_5.index t (0 : Fin 2) * 5000 + 1 * p.val = 5000 * t.val + p.val; omega
  | ⟨1, _⟩ => show win2_5.index t (1 : Fin 2) * 12 + 1 * q.val = q.val; omega

/-- The aggregate's block at `t`, read at `(p, k)`: row `5000·t + p` of the array the region finds. -/
theorem read_agg (c : Dev nD) (t : Fin cfg2.N) (p : Fin 5000) (k : Fin 24) :
    iblk2 V c 0 t (ix2 p k) = V c main_v61 (ix2 ⟨5000 * t.val + p.val, row_lt t p⟩ k) := by
  obtain ⟨e00, e01, -⟩ := idx_facts t
  show V c main_v61 (((cfg2.win 0).blk t).view.emb (ix2 p k)) = _
  refine congrArg (V c main_v61) ?_
  funext a; apply Fin.ext
  match a with
  | ⟨0, _⟩ => show win2_0.index t (0 : Fin 2) * 5000 + 1 * p.val = 5000 * t.val + p.val; omega
  | ⟨1, _⟩ => show win2_0.index t (1 : Fin 2) * 24 + 1 * k.val = k.val; omega

/-- The layer input's block at `t`, read at `(p, k)`. -/
theorem read_in (c : Dev nD) (t : Fin cfg2.N) (p : Fin 5000) (k : Fin 24) :
    iblk2 V c 1 t (ix2 p k) = V c main_v43 (ix2 ⟨5000 * t.val + p.val, row_lt t p⟩ k) := by
  obtain ⟨-, -, e10, e11, -⟩ := idx_facts t
  show V c main_v43 (((cfg2.win 1).blk t).view.emb (ix2 p k)) = _
  refine congrArg (V c main_v43) ?_
  funext a; apply Fin.ext
  match a with
  | ⟨0, _⟩ => show win2_1.index t (0 : Fin 2) * 5000 + 1 * p.val = 5000 * t.val + p.val; omega
  | ⟨1, _⟩ => show win2_1.index t (1 : Fin 2) * 24 + 1 * k.val = k.val; omega

/-- The neighbour weights' block is the whole matrix at every point. -/
theorem read_wl (c : Dev nD) (t : Fin cfg2.N) (k : Fin 24) (q : Fin 12) :
    iblk2 V c 2 t (ix2 k q) = V c main_arg8 (ix2 k q) := by
  obtain ⟨-, -, -, -, e20, e21, -⟩ := idx_facts t
  show V c main_arg8 (((cfg2.win 2).blk t).view.emb (ix2 k q)) = _
  refine congrArg (V c main_arg8) ?_
  funext a; apply Fin.ext
  match a with
  | ⟨0, _⟩ => show win2_2.index t (0 : Fin 2) * 24 + 1 * k.val = k.val; omega
  | ⟨1, _⟩ => show win2_2.index t (1 : Fin 2) * 12 + 1 * q.val = q.val; omega

/-- The root weights' block is the whole matrix at every point. -/
theorem read_wr (c : Dev nD) (t : Fin cfg2.N) (k : Fin 24) (q : Fin 12) :
    iblk2 V c 3 t (ix2 k q) = V c main_arg9 (ix2 k q) := by
  obtain ⟨-, -, -, -, -, -, e30, e31, -⟩ := idx_facts t
  show V c main_arg9 (((cfg2.win 3).blk t).view.emb (ix2 k q)) = _
  refine congrArg (V c main_arg9) ?_
  funext a; apply Fin.ext
  match a with
  | ⟨0, _⟩ => show win2_3.index t (0 : Fin 2) * 24 + 1 * k.val = k.val; omega
  | ⟨1, _⟩ => show win2_3.index t (1 : Fin 2) * 12 + 1 * q.val = q.val; omega

/-- The bias block is the whole one-row array at every point. -/
theorem read_bias (c : Dev nD) (t : Fin cfg2.N) (q : Fin 12) :
    iblk2 V c 4 t (ix2 (0 : Fin 1) q) = V c main_v62 (ix2 (0 : Fin 1) q) := by
  obtain ⟨-, -, -, -, -, -, -, -, e40, e41, -⟩ := idx_facts t
  show V c main_v62 (((cfg2.win 4).blk t).view.emb (ix2 (0 : Fin 1) q)) = _
  refine congrArg (V c main_v62) ?_
  funext a; apply Fin.ext
  match a with
  | ⟨0, _⟩ => show win2_4.index t (0 : Fin 2) * 1 + 1 * 0 = 0; omega
  | ⟨1, _⟩ => show win2_4.index t (1 : Fin 2) * 12 + 1 * q.val = q.val; omega

/-- The layer's dense half of the arrays the region finds, the bias given as the vector `b` whose one-row form the
    region's bias array is. -/
abbrev G (c : Dev nD) (b : FVec Ideal S12 .f32) : S100000x12.Idx → EReal :=
  Cert.Sage.layer Cert.Sage.logisticAct (V c main_v61) (V c main_v43) (V c main_arg8) (V c main_arg9) b

/-- What point `t` writes back is block `t` of `G`: the body's value at `(p, q)` is the activation of row `p` of the
    blocks' affine form, and each block read is the array read at row `5000·t + p` (or at the whole weight or bias). -/
theorem flushed_eq (c : Dev nD) (b : FVec Ideal S12 .f32) (hb : ∀ q : Fin 12, V c main_v62 (ix2 (0 : Fin 1) q) = b (ix1 q)) (t : Fin cfg2.N) :
    (dat2 V c).flushed 5 t = ((cfg2.win 5).blk t).view.read (Elt Ideal) (G V c b) := by
  show (cfg2.win 5).cut (grid2.coords t) ((dat2 V c).after 5 t) = _
  rw [after2_5]
  unfold out2_5
  rw [View.canon_unit_zero hz]
  simp only [View.ld_unit_zero (S := S5000x24) hz, View.ld_unit_zero (S := S24x12) hz, View.ld_unit_zero (S := S1x12) hz]
  funext j
  obtain ⟨p, q, rfl⟩ : ∃ (p : Fin 5000) (q : Fin 12), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = G V c b (((cfg2.win 5).blk t).view.emb (ix2 p q))
  rw [emb_out t p q]
  refine (pay_apply (iblk2 V c 0 t) (iblk2 V c 1 t) (iblk2 V c 2 t) (iblk2 V c 3 t) (iblk2 V c 4 t) p q).trans ?_
  show Cert.Sage.logisticAct (Cert.Sage.affineAt (iblk2 V c 0 t) (iblk2 V c 1 t) (iblk2 V c 2 t) (iblk2 V c 3 t) (iblk2 V c 4 t (ix2 (0 : Fin 1) q)) p q)
    = Cert.Sage.logisticAct (Cert.Sage.affineAt (V c main_v61) (V c main_v43) (V c main_arg8) (V c main_arg9) (b (ix1 q)) ⟨5000 * t.val + p.val, row_lt t p⟩ q)
  unfold Cert.Sage.affineAt
  simp only [read_agg V c t, read_in V c t, read_wl V c t, read_wr V c t, read_bias V c t, hb]

/-- An index is in the output's block at `t` iff each coordinate is in the block's range on its axis. -/
theorem mem_blk (t : Fin cfg2.N) (i : S100000x12.Idx) :
    i ∈ ((cfg2.win 5).blk t).view.set ↔ ∀ a : Fin 2, win2_5.index t a * S5000x12.size a ≤ (i a).val ∧ (i a).val < win2_5.index t a * S5000x12.size a + S5000x12.size a := by
  show i ∈ ((View.whole main_v63).slice (win2_5.rect t)).set ↔ _
  rw [View.set_slice_whole, Rect.mem_set_unit]
  exact Iff.rfl

/-- Every index of the output array is in the block of the point `row / 5000`, which is written back. -/
theorem cover (i : S100000x12.Idx) : ∃ t : Fin cfg2.N, (cfg2.win 5).flush t = true ∧ i ∈ ((cfg2.win 5).blk t).view.set := by
  have hi0 : (i 0).val < 100000 := (i 0).isLt
  have hi1 : (i 1).val < 12 := (i 1).isLt
  have hlt : (i 0).val / 5000 < cfg2.N := by rw [show cfg2.N = 20 from N_2]; omega
  obtain ⟨-, -, -, -, -, -, -, -, -, -, e50, e51⟩ := idx_facts ⟨(i 0).val / 5000, hlt⟩
  have e50' : win2_5.index ⟨(i 0).val / 5000, hlt⟩ (0 : Fin 2) = (i 0).val / 5000 := e50
  refine ⟨⟨(i 0).val / 5000, hlt⟩, flush2_5 _, ?_⟩
  rw [mem_blk]
  intro a
  match a with
  | ⟨0, _⟩ => show win2_5.index ⟨(i 0).val / 5000, hlt⟩ (0 : Fin 2) * 5000 ≤ (i 0).val ∧ (i 0).val < win2_5.index ⟨(i 0).val / 5000, hlt⟩ (0 : Fin 2) * 5000 + 5000; omega
  | ⟨1, _⟩ => show win2_5.index ⟨(i 0).val / 5000, hlt⟩ (1 : Fin 2) * 12 ≤ (i 1).val ∧ (i 1).val < win2_5.index ⟨(i 0).val / 5000, hlt⟩ (1 : Fin 2) * 12 + 12; omega

/-- The output array after the region is the layer's dense half of the arrays the region finds. -/
theorem out_eq (c : Dev nD) (b : FVec Ideal S12 .f32) (hb : ∀ q : Fin 12, V c main_v62 (ix2 (0 : Fin 1) q) = b (ix1 q)) :
    (dat2 V c).arrAt 5 cfg2.N = G V c b :=
  (dat2 V c).arrAt_eq_of_cover 5 (G V c b) (fun t _ => flushed_eq V c b hb t) cover

end Cert.Sage.Region2

end
-- ==== Proof.RefValue.lean ====
/-
  The reference, layer by layer. The reference program computes, three times over, the mean of each node's in-neighbours'
  feature rows (a gather along the edge list's source row, a segment sum along its destination row, a division by the
  neighbour count clamped below at one) and then the dense half of the layer. The aggregation is kept as ONE function of
  the feature array and the edge list, `meanAgg24` (the first layer's, over 32 features, is the reference's own stage
  `val_main_v21`): the kernel's program applies the same operations, so nothing here looks inside it. Each dense half, read
  element by element — the host's products as sums over the contracted axis, the bias broadcast over the rows, the
  activation — is `Cert.Sage.layer`; the last layer's `1 / (1 + exp (-v))` is the logistic function.
-/
import proofs.«146685_j32375463477418_1_alg».proof.Proof.Gen.ReferenceIdeal.Read
import proofs.«146685_j32375463477418_1_alg».proof.Proof.SageSpec
import Idealize.ShloMosaic.PureOps.IdealRules

noncomputable section

namespace Cert.Sage.Ref

open Idealize.ShloMosaic Idealize.ShloMosaic.ValueIdx Cert.ReferenceIdeal Cert.ReferenceIdeal.Read

section Aggregation

variable {F : FTy → Type} [FloatOps F]

/-- The mean over in-neighbours of a 24-feature array `h` along the edge list `x1`: rows of `h` gathered at the edges'
    sources (a negative source counted from the end), summed into the edges' destinations, divided by the number of edges
    into each destination, at least one. -/
def meanAgg24 (h : (⟨S100000x24, .f32⟩ : BufTy).Contents (Elt F)) (x1 : (⟨S2x3200000, .i32⟩ : BufTy).Contents (Elt F)) : (⟨S100000x24, .f32⟩ : BufTy).Contents (Elt F) :=
  Host.divf (Host.scatterAdd scatter_S100000x24_S3200000x1_S3200000x24_1_0_0_1 (val_main_v36 (F := F)) (val_main_v37 (F := F) x1)
      (Host.gather gather_S100000x24_S3200000x1_S3200000x24_1_0_n_n_0_1_124 h (val_main_v34 (F := F) x1)))
    (val_main_v45 (F := F) x1)

/-- The second layer's aggregate is `meanAgg24` of the first layer's output. -/
theorem agg2_eq (x0 : (⟨S100000x32, .f32⟩ : BufTy).Contents (Elt F)) (x1 : (⟨S2x3200000, .i32⟩ : BufTy).Contents (Elt F)) (x2 x3 : (⟨S32x24, .f32⟩ : BufTy).Contents (Elt F)) (x4 : (⟨S24, .f32⟩ : BufTy).Contents (Elt F)) :
    val_main_v46 (F := F) x0 x1 x2 x3 x4 = meanAgg24 (val_main_v28 (F := F) x0 x1 x2 x3 x4) x1 := rfl

/-- The third layer's aggregate is `meanAgg24` of the second layer's output (the program repeats the index and count
    computations; they are the same operations of the edge list). -/
theorem agg3_eq (x0 : (⟨S100000x32, .f32⟩ : BufTy).Contents (Elt F)) (x1 : (⟨S2x3200000, .i32⟩ : BufTy).Contents (Elt F)) (x2 x3 : (⟨S32x24, .f32⟩ : BufTy).Contents (Elt F)) (x4 : (⟨S24, .f32⟩ : BufTy).Contents (Elt F)) (x5 x6 : (⟨S24x24, .f32⟩ : BufTy).Contents (Elt F)) (x7 : (⟨S24, .f32⟩ : BufTy).Contents (Elt F)) :
    val_main_v71 (F := F) x0 x1 x2 x3 x4 x5 x6 x7 = meanAgg24 (val_main_v53 (F := F) x0 x1 x2 x3 x4 x5 x6 x7) x1 := rfl

end Aggregation

/-- The whole network on the extended reals: three layers, each the dense half of the mean aggregate and the layer's input. -/
def sage (x0 : (⟨S100000x32, .f32⟩ : BufTy).Contents (Elt Ideal)) (x1 : (⟨S2x3200000, .i32⟩ : BufTy).Contents (Elt Ideal)) (x2 x3 : (⟨S32x24, .f32⟩ : BufTy).Contents (Elt Ideal)) (x4 : (⟨S24, .f32⟩ : BufTy).Contents (Elt Ideal)) (x5 x6 : (⟨S24x24, .f32⟩ : BufTy).Contents (Elt Ideal)) (x7 : (⟨S24, .f32⟩ : BufTy).Contents (Elt Ideal)) (x8 x9 : (⟨S24x12, .f32⟩ : BufTy).Contents (Elt Ideal)) (x10 : (⟨S12, .f32⟩ : BufTy).Contents (Elt Ideal)) : S100000x12.Idx → EReal :=
  Cert.Sage.layer Cert.Sage.logisticAct
    (meanAgg24 (Cert.Sage.layer Cert.Sage.reluAct (meanAgg24 (Cert.Sage.layer Cert.Sage.reluAct (val_main_v21 (F := Ideal) x0 x1) x0 x2 x3 x4) x1)
      (Cert.Sage.layer Cert.Sage.reluAct (val_main_v21 (F := Ideal) x0 x1) x0 x2 x3 x4) x5 x6 x7) x1)
    (Cert.Sage.layer Cert.Sage.reluAct (meanAgg24 (Cert.Sage.layer Cert.Sage.reluAct (val_main_v21 (F := Ideal) x0 x1) x0 x2 x3 x4) x1)
      (Cert.Sage.layer Cert.Sage.reluAct (val_main_v21 (F := Ideal) x0 x1) x0 x2 x3 x4) x5 x6 x7)
    x8 x9 x10

/-- The first hidden layer of the reference. -/
theorem hidden1 (x0 : (⟨S100000x32, .f32⟩ : BufTy).Contents (Elt Ideal)) (x1 : (⟨S2x3200000, .i32⟩ : BufTy).Contents (Elt Ideal)) (x2 x3 : (⟨S32x24, .f32⟩ : BufTy).Contents (Elt Ideal)) (x4 : (⟨S24, .f32⟩ : BufTy).Contents (Elt Ideal)) :
    val_main_v28 (F := Ideal) x0 x1 x2 x3 x4 = Cert.Sage.layer Cert.Sage.reluAct (val_main_v21 (F := Ideal) x0 x1) x0 x2 x3 x4 := by
  funext i
  obtain ⟨r, q, rfl⟩ : ∃ (r : Fin 100000) (q : Fin 24), i = ix2 r q := ⟨i 0, i 1, eq_ix2 i⟩
  rw [val_main_v28_apply, val_main_v27_apply, val_main_v24_apply, val_main_v22_apply, val_main_v23_apply, val_main_v26_apply,
    val_main_v25_apply, val_main_call0_v0_apply, val_main_call0_cst_apply, Cert.Sage.layer_apply]
  have el (k : Fin 32) : lidx_main_v22 (ix2 r q) k = ix2 r k := funext fun a => Fin.ext (by match a with | ⟨0, _⟩ => rfl | ⟨1, _⟩ => rfl)
  have er (k : Fin 32) : ridx_main_v22 (ix2 r q) k = ix2 k q := funext fun a => Fin.ext (by match a with | ⟨0, _⟩ => rfl | ⟨1, _⟩ => rfl)
  have el' (k : Fin 32) : lidx_main_v23 (ix2 r q) k = ix2 r k := funext fun a => Fin.ext (by match a with | ⟨0, _⟩ => rfl | ⟨1, _⟩ => rfl)
  have er' (k : Fin 32) : ridx_main_v23 (ix2 r q) k = ix2 k q := funext fun a => Fin.ext (by match a with | ⟨0, _⟩ => rfl | ⟨1, _⟩ => rfl)
  have eb : idx_main_v25 (idx_main_v26 (ix2 r q)) = ix1 q := funext fun a => Fin.ext (by match a with | ⟨0, _⟩ => rfl)
  simp only [el, er, el', er', eb]
  rfl

/-- The second hidden layer of the reference. -/
theorem hidden2 (x0 : (⟨S100000x32, .f32⟩ : BufTy).Contents (Elt Ideal)) (x1 : (⟨S2x3200000, .i32⟩ : BufTy).Contents (Elt Ideal)) (x2 x3 : (⟨S32x24, .f32⟩ : BufTy).Contents (Elt Ideal)) (x4 : (⟨S24, .f32⟩ : BufTy).Contents (Elt Ideal)) (x5 x6 : (⟨S24x24, .f32⟩ : BufTy).Contents (Elt Ideal)) (x7 : (⟨S24, .f32⟩ : BufTy).Contents (Elt Ideal)) :
    val_main_v53 (F := Ideal) x0 x1 x2 x3 x4 x5 x6 x7
      = Cert.Sage.layer Cert.Sage.reluAct (val_main_v46 (F := Ideal) x0 x1 x2 x3 x4) (val_main_v28 (F := Ideal) x0 x1 x2 x3 x4) x5 x6 x7 := by
  funext i
  obtain ⟨r, q, rfl⟩ : ∃ (r : Fin 100000) (q : Fin 24), i = ix2 r q := ⟨i 0, i 1, eq_ix2 i⟩
  rw [val_main_v53_apply, val_main_v52_apply, val_main_v49_apply, val_main_v47_apply, val_main_v48_apply, val_main_v51_apply,
    val_main_v50_apply, val_main_call1_v0_apply, val_main_call1_cst_apply, Cert.Sage.layer_apply]
  have el (k : Fin 24) : lidx_main_v47 (ix2 r q) k = ix2 r k := funext fun a => Fin.ext (by match a with | ⟨0, _⟩ => rfl | ⟨1, _⟩ => rfl)
  have er (k : Fin 24) : ridx_main_v47 (ix2 r q) k = ix2 k q := funext fun a => Fin.ext (by match a with | ⟨0, _⟩ => rfl | ⟨1, _⟩ => rfl)
  have el' (k : Fin 24) : lidx_main_v48 (ix2 r q) k = ix2 r k := funext fun a => Fin.ext (by match a with | ⟨0, _⟩ => rfl | ⟨1, _⟩ => rfl)
  have er' (k : Fin 24) : ridx_main_v48 (ix2 r q) k = ix2 k q := funext fun a => Fin.ext (by match a with | ⟨0, _⟩ => rfl | ⟨1, _⟩ => rfl)
  have eb : idx_main_v50 (idx_main_v51 (ix2 r q)) = ix1 q := funext fun a => Fin.ext (by match a with | ⟨0, _⟩ => rfl)
  simp only [el, er, el', er', eb]
  rfl

/-- The word `0x3F800000` denotes one. -/
theorem one_f32 : FloatOps.ofBits (F := Ideal) .f32 0x3F800000#32 = (1 : EReal) := IdealRules.sign_bit.ideal_onePat .f32

/-- The output layer of the reference: `1 / (1 + exp (-v))` of the affine form `v` is the logistic function of `v`. -/
theorem output3 (x0 : (⟨S100000x32, .f32⟩ : BufTy).Contents (Elt Ideal)) (x1 : (⟨S2x3200000, .i32⟩ : BufTy).Contents (Elt Ideal)) (x2 x3 : (⟨S32x24, .f32⟩ : BufTy).Contents (Elt Ideal)) (x4 : (⟨S24, .f32⟩ : BufTy).Contents (Elt Ideal)) (x5 x6 : (⟨S24x24, .f32⟩ : BufTy).Contents (Elt Ideal)) (x7 : (⟨S24, .f32⟩ : BufTy).Contents (Elt Ideal)) (x8 x9 : (⟨S24x12, .f32⟩ : BufTy).Contents (Elt Ideal)) (x10 : (⟨S12, .f32⟩ : BufTy).Contents (Elt Ideal)) :
    val_main_v83 (F := Ideal) x0 x1 x2 x3 x4 x5 x6 x7 x8 x9 x10
      = Cert.Sage.layer Cert.Sage.logisticAct (val_main_v71 (F := Ideal) x0 x1 x2 x3 x4 x5 x6 x7) (val_main_v53 (F := Ideal) x0 x1 x2 x3 x4 x5 x6 x7) x8 x9 x10 := by
  funext i
  obtain ⟨r, q, rfl⟩ : ∃ (r : Fin 100000) (q : Fin 12), i = ix2 r q := ⟨i 0, i 1, eq_ix2 i⟩
  rw [val_main_v83_apply, val_main_v82_apply, val_main_cst_17_apply, val_main_v81_apply, val_main_v80_apply, val_main_cst_16_apply,
    val_main_v79_apply, val_main_v78_apply, val_main_v77_apply, val_main_v74_apply, val_main_v72_apply, val_main_v73_apply,
    val_main_v76_apply, val_main_v75_apply, Cert.Sage.layer_apply]
  have el (k : Fin 24) : lidx_main_v72 (ix2 r q) k = ix2 r k := funext fun a => Fin.ext (by match a with | ⟨0, _⟩ => rfl | ⟨1, _⟩ => rfl)
  have er (k : Fin 24) : ridx_main_v72 (ix2 r q) k = ix2 k q := funext fun a => Fin.ext (by match a with | ⟨0, _⟩ => rfl | ⟨1, _⟩ => rfl)
  have el' (k : Fin 24) : lidx_main_v73 (ix2 r q) k = ix2 r k := funext fun a => Fin.ext (by match a with | ⟨0, _⟩ => rfl | ⟨1, _⟩ => rfl)
  have er' (k : Fin 24) : ridx_main_v73 (ix2 r q) k = ix2 k q := funext fun a => Fin.ext (by match a with | ⟨0, _⟩ => rfl | ⟨1, _⟩ => rfl)
  have eb : idx_main_v75 (idx_main_v76 (ix2 r q)) = ix1 q := funext fun a => Fin.ext (by match a with | ⟨0, _⟩ => rfl)
  simp only [el, er, el', er', eb, one_f32, Cert.Sage.logisticAct, Ideal.logistic, Cert.Sage.affineAt, Ideal.hostDivf_def, Ideal.addf_def,
    Ideal.hostUnary_exp_def, Ideal.hostNegf_def, Ideal.negf_def]

/-- The reference's result is the network `sage` of its arguments. -/
theorem result_eq (x0 : (⟨S100000x32, .f32⟩ : BufTy).Contents (Elt Ideal)) (x1 : (⟨S2x3200000, .i32⟩ : BufTy).Contents (Elt Ideal)) (x2 x3 : (⟨S32x24, .f32⟩ : BufTy).Contents (Elt Ideal)) (x4 : (⟨S24, .f32⟩ : BufTy).Contents (Elt Ideal)) (x5 x6 : (⟨S24x24, .f32⟩ : BufTy).Contents (Elt Ideal)) (x7 : (⟨S24, .f32⟩ : BufTy).Contents (Elt Ideal)) (x8 x9 : (⟨S24x12, .f32⟩ : BufTy).Contents (Elt Ideal)) (x10 : (⟨S12, .f32⟩ : BufTy).Contents (Elt Ideal)) :
    val_main_v83 (F := Ideal) x0 x1 x2 x3 x4 x5 x6 x7 x8 x9 x10 = sage x0 x1 x2 x3 x4 x5 x6 x7 x8 x9 x10 := by
  rw [output3, agg3_eq, hidden2, agg2_eq, hidden1]
  rfl

end Cert.Sage.Ref

end
-- ==== Proof.KernelValue.lean ====
/-
  The kernel program's result, as a value. Between the launch and the return the program's buffers pass through six
  boundaries: a stretch of host operations, a region, and so on three times. The stretch before each region computes that
  layer's mean aggregate from the layer's input and the edge list — the same operations as the reference's, so the
  aggregate is the reference's own function (`val_main_v21`, `Ref.meanAgg24`) of the arrays at the previous boundary — and
  the bias as a one-row array; the region then leaves in its output array the layer's dense half of what it found
  (`Region0.out_eq`, `Region1.out_eq`, `Region2.out_eq`). A buffer that a stretch or a region does not write is read back
  at the previous boundary: the edge list's two rows, computed before the first region, serve all three layers. Composed,
  the result array at the last boundary is the network `Ref.sage` of the arguments.
-/
import proofs.«146685_j32375463477418_1_alg».proof.Proof.Gen.KernelIdeal.Frame
import proofs.«146685_j32375463477418_1_alg».proof.Proof.Region0
import proofs.«146685_j32375463477418_1_alg».proof.Proof.Region1
import proofs.«146685_j32375463477418_1_alg».proof.Proof.Region2
import proofs.«146685_j32375463477418_1_alg».proof.Proof.RefValue
import Idealize.ShloMosaic.Lib.ValueLayout

noncomputable section

namespace Cert.Sage.KernelValue

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v1 val_main_v3 val_main_v21)
open Cert.Sage.Ref (meanAgg24 sage)

variable (m : (ℓ : Loc nD τ sig) → Buf (Elt Ideal) ℓ) (ρ : Dev nD → PrngReg) (c : Dev nD)

/-! ## The arguments at launch -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)

/-! ## The first layer -/

/-- The edge list's source row, after the first stretch. -/
theorem src1 : W1 m ρ c (Proc.devRef .tc main_v1) = val_main_v1 (F := Ideal) (a1 m c) := by
  show StableHlo.after hostOps0 (W0 m ρ c) (Proc.devRef .tc main_v1) = _
  after_results_simp <;> rfl

/-- The edge list's destination row, after the first stretch. -/
theorem dst1 : W1 m ρ c (Proc.devRef .tc main_v3) = val_main_v3 (F := Ideal) (a1 m c) := by
  show StableHlo.after hostOps0 (W0 m ρ c) (Proc.devRef .tc main_v3) = _
  after_results_simp <;> rfl

/-- The first region finds the mean aggregate of the input features. -/
theorem agg1 : V1 m ρ c main_v21 = val_main_v21 (F := Ideal) (a0 m c) (a1 m c) := by
  show StableHlo.after hostOps0 (W0 m ρ c) (Proc.devRef .tc main_v21) = _
  after_results_simp <;> rfl

/-- The first region finds the first bias as a one-row array. -/
theorem bias1 (q : Fin 24) : V1 m ρ c main_v22 (ix2 (0 : Fin 1) q) = a4 m c (ix1 q) := by
  have e : (V1 m ρ c main_v22 : S1x24.Idx → EReal) = shapeCast S1x24 (a4 m c) shapeCasts_S24_S1x24 := by
    show StableHlo.after hostOps0 (W0 m ρ c) (Proc.devRef .tc main_v22) = _
    after_results_simp <;> rfl
  rw [e]
  exact shapeCast_a_1a_apply _ _ _ _

theorem in1 : V1 m ρ c main_arg0 = a0 m c := by
  show StableHlo.after hostOps0 (W0 m ρ c) (Proc.devRef .tc main_arg0) = _
  after_results_simp <;> rfl

theorem wl1 : V1 m ρ c main_arg2 = a2 m c := by
  show StableHlo.after hostOps0 (W0 m ρ c) (Proc.devRef .tc main_arg2) = _
  after_results_simp <;> rfl

theorem wr1 : V1 m ρ c main_arg3 = a3 m c := by
  show StableHlo.after hostOps0 (W0 m ρ c) (Proc.devRef .tc main_arg3) = _
  after_results_simp <;> rfl

/-- The first hidden layer, of the arguments. -/
def h1 : S100000x24.Idx → EReal :=
  Cert.Sage.layer Cert.Sage.reluAct (val_main_v21 (F := Ideal) (a0 m c) (a1 m c)) (a0 m c) (a2 m c) (a3 m c) (a4 m c)

/-- The first region leaves the first hidden layer in its output array. -/
theorem out1 : W2 m ρ c (Proc.devRef .tc main_v23) = h1 m c := by
  refine (W2_arr m ρ c 5).trans ((Cert.Sage.Region0.out_eq (V1 m ρ) c (a4 m c) (bias1 m ρ c)).trans ?_)
  show Cert.Sage.layer Cert.Sage.reluAct (V1 m ρ c main_v21) (V1 m ρ c main_arg0) (V1 m ρ c main_arg2) (V1 m ρ c main_arg3) (a4 m c) = _
  rw [agg1, in1, wl1, wr1]
  rfl

/-! ## The second layer -/

theorem src2 : W2 m ρ c (Proc.devRef .tc main_v1) = val_main_v1 (F := Ideal) (a1 m c) :=
  (W2_of_ne m ρ c main_v1 (by decide)).trans (src1 m ρ c)

theorem dst2 : W2 m ρ c (Proc.devRef .tc main_v3) = val_main_v3 (F := Ideal) (a1 m c) :=
  (W2_of_ne m ρ c main_v3 (by decide)).trans (dst1 m ρ c)

theorem keep2_arg5 : W2 m ρ c (Proc.devRef .tc main_arg5) = a5 m c :=
  (W2_of_ne m ρ c main_arg5 (by decide)).trans (by
    show StableHlo.after hostOps0 (W0 m ρ c) (Proc.devRef .tc main_arg5) = _
    after_results_simp <;> rfl)

theorem keep2_arg6 : W2 m ρ c (Proc.devRef .tc main_arg6) = a6 m c :=
  (W2_of_ne m ρ c main_arg6 (by decide)).trans (by
    show StableHlo.after hostOps0 (W0 m ρ c) (Proc.devRef .tc main_arg6) = _
    after_results_simp <;> rfl)

theorem keep2_arg7 : W2 m ρ c (Proc.devRef .tc main_arg7) = a7 m c :=
  (W2_of_ne m ρ c main_arg7 (by decide)).trans (by
    show StableHlo.after hostOps0 (W0 m ρ c) (Proc.devRef .tc main_arg7) = _
    after_results_simp <;> rfl)

theorem keep2_arg8 : W2 m ρ c (Proc.devRef .tc main_arg8) = a8 m c :=
  (W2_of_ne m ρ c main_arg8 (by decide)).trans (by
    show StableHlo.after hostOps0 (W0 m ρ c) (Proc.devRef .tc main_arg8) = _
    after_results_simp <;> rfl)

theorem keep2_arg9 : W2 m ρ c (Proc.devRef .tc main_arg9) = a9 m c :=
  (W2_of_ne m ρ c main_arg9 (by decide)).trans (by
    show StableHlo.after hostOps0 (W0 m ρ c) (Proc.devRef .tc main_arg9) = _
    after_results_simp <;> rfl)

theorem keep2_arg10 : W2 m ρ c (Proc.devRef .tc main_arg10) = a10 m c :=
  (W2_of_ne m ρ c main_arg10 (by decide)).trans (by
    show StableHlo.after hostOps0 (W0 m ρ c) (Proc.devRef .tc main_arg10) = _
    after_results_simp <;> rfl)

/-- The second region finds the mean aggregate of the first hidden layer. -/
theorem agg2 : V3 m ρ c main_v41 = meanAgg24 (h1 m c) (a1 m c) := by
  show StableHlo.after hostOps1 (W2 m ρ c) (Proc.devRef .tc main_v41) = _
  after_results_simp
  rw [src2, dst2, out1]
  rfl

theorem bias2 (q : Fin 24) : V3 m ρ c main_v42 (ix2 (0 : Fin 1) q) = a7 m c (ix1 q) := by
  have e : (V3 m ρ c main_v42 : S1x24.Idx → EReal) = shapeCast S1x24 (a7 m c) shapeCasts_S24_S1x24 := by
    show StableHlo.after hostOps1 (W2 m ρ c) (Proc.devRef .tc main_v42) = _
    after_results_simp
    rw [keep2_arg7]
    rfl
  rw [e]
  exact shapeCast_a_1a_apply _ _ _ _

theorem in2 : V3 m ρ c main_v23 = h1 m c := by
  show StableHlo.after hostOps1 (W2 m ρ c) (Proc.devRef .tc main_v23) = _
  after_results_simp
  exact out1 m ρ c

theorem wl2 : V3 m ρ c main_arg5 = a5 m c := by
  show StableHlo.after hostOps1 (W2 m ρ c) (Proc.devRef .tc main_arg5) = _
  after_results_simp
  exact keep2_arg5 m ρ c

theorem wr2 : V3 m ρ c main_arg6 = a6 m c := by
  show StableHlo.after hostOps1 (W2 m ρ c) (Proc.devRef .tc main_arg6) = _
  after_results_simp
  exact keep2_arg6 m ρ c

/-- The second hidden layer, of the arguments. -/
def h2 : S100000x24.Idx → EReal :=
  Cert.Sage.layer Cert.Sage.reluAct (meanAgg24 (h1 m c) (a1 m c)) (h1 m c) (a5 m c) (a6 m c) (a7 m c)

/-- The second region leaves the second hidden layer in its output array. -/
theorem out2 : W4 m ρ c (Proc.devRef .tc main_v43) = h2 m c := by
  refine (W4_arr m ρ c 5).trans ((Cert.Sage.Region1.out_eq (V3 m ρ) c (a7 m c) (bias2 m ρ c)).trans ?_)
  show Cert.Sage.layer Cert.Sage.reluAct (V3 m ρ c main_v41) (V3 m ρ c main_v23) (V3 m ρ c main_arg5) (V3 m ρ c main_arg6) (a7 m c) = _
  rw [agg2, in2, wl2, wr2]
  rfl

/-! ## The third layer -/

/-- A buffer the second stretch does not write is read back at the boundary before it. -/
theorem across_main_v1 : W3 m ρ c (Proc.devRef .tc main_v1) = W2 m ρ c (Proc.devRef .tc main_v1) := by
  show StableHlo.after hostOps1 (W2 m ρ c) (Proc.devRef .tc main_v1) = _
  after_results_simp <;> rfl

theorem src3 : W4 m ρ c (Proc.devRef .tc main_v1) = val_main_v1 (F := Ideal) (a1 m c) :=
  (W4_of_ne m ρ c main_v1 (by decide)).trans ((across_main_v1 m ρ c).trans (src2 m ρ c))

theorem across_main_v3 : W3 m ρ c (Proc.devRef .tc main_v3) = W2 m ρ c (Proc.devRef .tc main_v3) := by
  show StableHlo.after hostOps1 (W2 m ρ c) (Proc.devRef .tc main_v3) = _
  after_results_simp <;> rfl

theorem dst3 : W4 m ρ c (Proc.devRef .tc main_v3) = val_main_v3 (F := Ideal) (a1 m c) :=
  (W4_of_ne m ρ c main_v3 (by decide)).trans ((across_main_v3 m ρ c).trans (dst2 m ρ c))

theorem across_main_arg8 : W3 m ρ c (Proc.devRef .tc main_arg8) = W2 m ρ c (Proc.devRef .tc main_arg8) := by
  show StableHlo.after hostOps1 (W2 m ρ c) (Proc.devRef .tc main_arg8) = _
  after_results_simp <;> rfl

theorem keep4_arg8 : W4 m ρ c (Proc.devRef .tc main_arg8) = a8 m c :=
  (W4_of_ne m ρ c main_arg8 (by decide)).trans ((across_main_arg8 m ρ c).trans (keep2_arg8 m ρ c))

theorem across_main_arg9 : W3 m ρ c (Proc.devRef .tc main_arg9) = W2 m ρ c (Proc.devRef .tc main_arg9) := by
  show StableHlo.after hostOps1 (W2 m ρ c) (Proc.devRef .tc main_arg9) = _
  after_results_simp <;> rfl

theorem keep4_arg9 : W4 m ρ c (Proc.devRef .tc main_arg9) = a9 m c :=
  (W4_of_ne m ρ c main_arg9 (by decide)).trans ((across_main_arg9 m ρ c).trans (keep2_arg9 m ρ c))

theorem across_main_arg10 : W3 m ρ c (Proc.devRef .tc main_arg10) = W2 m ρ c (Proc.devRef .tc main_arg10) := by
  show StableHlo.after hostOps1 (W2 m ρ c) (Proc.devRef .tc main_arg10) = _
  after_results_simp <;> rfl

theorem keep4_arg10 : W4 m ρ c (Proc.devRef .tc main_arg10) = a10 m c :=
  (W4_of_ne m ρ c main_arg10 (by decide)).trans ((across_main_arg10 m ρ c).trans (keep2_arg10 m ρ c))

/-- The third region finds the mean aggregate of the second hidden layer. -/
theorem agg3 : V5 m ρ c main_v61 = meanAgg24 (h2 m c) (a1 m c) := by
  show StableHlo.after hostOps2 (W4 m ρ c) (Proc.devRef .tc main_v61) = _
  after_results_simp
  rw [src3, dst3, out2]
  rfl

theorem bias3 (q : Fin 12) : V5 m ρ c main_v62 (ix2 (0 : Fin 1) q) = a10 m c (ix1 q) := by
  have e : (V5 m ρ c main_v62 : S1x12.Idx → EReal) = shapeCast S1x12 (a10 m c) shapeCasts_S12_S1x12 := by
    show StableHlo.after hostOps2 (W4 m ρ c) (Proc.devRef .tc main_v62) = _
    after_results_simp
    rw [keep4_arg10]
    rfl
  rw [e]
  exact shapeCast_a_1a_apply _ _ _ _

theorem in3 : V5 m ρ c main_v43 = h2 m c := by
  show StableHlo.after hostOps2 (W4 m ρ c) (Proc.devRef .tc main_v43) = _
  after_results_simp
  exact out2 m ρ c

theorem wl3 : V5 m ρ c main_arg8 = a8 m c := by
  show StableHlo.after hostOps2 (W4 m ρ c) (Proc.devRef .tc main_arg8) = _
  after_results_simp
  exact keep4_arg8 m ρ c

theorem wr3 : V5 m ρ c main_arg9 = a9 m c := by
  show StableHlo.after hostOps2 (W4 m ρ c) (Proc.devRef .tc main_arg9) = _
  after_results_simp
  exact keep4_arg9 m ρ c

/-- The result array at the last boundary is the network of the arguments. -/
theorem result : W6 m ρ c (Proc.devRef .tc main_v63)
    = sage (a0 m c) (a1 m c) (a2 m c) (a3 m c) (a4 m c) (a5 m c) (a6 m c) (a7 m c) (a8 m c) (a9 m c) (a10 m c) := by
  refine (W6_arr m ρ c 5).trans ((Cert.Sage.Region2.out_eq (V5 m ρ) c (a10 m c) (bias3 m ρ c)).trans ?_)
  show Cert.Sage.layer Cert.Sage.logisticAct (V5 m ρ c main_v61) (V5 m ρ c main_v43) (V5 m ρ c main_arg8) (V5 m ρ c main_arg9) (a10 m c) = _
  rw [agg3, in3, wl3, wr3]
  rfl

end Cert.Sage.KernelValue

end
-- ==== Proof.lean ====
/-
  A three-layer GraphSAGE network with mean aggregation, its dense halves in a Pallas kernel, against the same network in
  jnp. Each layer is  h' = act (mean_agg(h) · Wl + h · Wr + b)  with act = max(·, 0) twice and the logistic function last.
  Both programs compute the mean aggregate on the host by the same operations (a gather along the edges' sources, a
  segment sum along their destinations, a division by the clamped neighbour count). The kernel program then runs a
  pallas_call over 20 row blocks of 5000 rows, whose body casts its blocks to bf16, multiplies into zero accumulators,
  adds the products and the bias row and applies the activation; the reference applies two `dot_general`s, two adds and
  the activation to the whole arrays. On the extended reals a change of float format is the identity and a block product
  into zero is the sum over the contracted axis, so block `t` of the kernel's output is rows `5000·t …` of the reference's
  layer, and the 20 blocks tile the array: layer by layer the two programs hold the same array, and the results are equal.
  No law of arithmetic beyond that is used (the two sides add in the same order), so the inputs' finiteness is not opened.

  Proof/SageSpec.lean states a layer's dense half; Proof/LibPlainDot.lean reads a rows-by-columns product at an element;
  Proof/Region0.lean, Region1.lean, Region2.lean read each region's output array as that layer of the arrays the region
  finds; Proof/KernelValue.lean threads them through the host stretches to the kernel program's result;
  Proof/RefValue.lean reads the reference's result as the same network; Proof/KernelLaunch.lean is the kernel program's
  run with its result array named. The frames of the two kernel programs are the generated ones, the reference's is its
  generated run with the result dropped, and the idealization rewrote nothing.
-/
import proofs.«146685_j32375463477418_1_alg».proof.Defs
import proofs.«146685_j32375463477418_1_alg».proof.Proof.Gen.Kernel
import proofs.«146685_j32375463477418_1_alg».proof.Proof.Gen.Kernel.Skeleton
import proofs.«146685_j32375463477418_1_alg».proof.Proof.Gen.Kernel.Launch
import proofs.«146685_j32375463477418_1_alg».proof.Proof.Gen.Kernel.Points
import proofs.«146685_j32375463477418_1_alg».proof.Proof.Gen.Kernel.Frame
import proofs.«146685_j32375463477418_1_alg».proof.Proof.Gen.KernelIdeal
import proofs.«146685_j32375463477418_1_alg».proof.Proof.Gen.KernelIdeal.Skeleton
import proofs.«146685_j32375463477418_1_alg».proof.Proof.Gen.KernelIdeal.Launch
import proofs.«146685_j32375463477418_1_alg».proof.Proof.Gen.KernelIdeal.Points
import proofs.«146685_j32375463477418_1_alg».proof.Proof.Gen.KernelIdeal.Frame
import proofs.«146685_j32375463477418_1_alg».proof.Proof.Gen.ReferenceIdeal
import proofs.«146685_j32375463477418_1_alg».proof.Proof.Gen.ReferenceIdeal.Run
import proofs.«146685_j32375463477418_1_alg».proof.Proof.Gen.ReferenceIdeal.Read
import proofs.«146685_j32375463477418_1_alg».proof.Proof.Gen.Pre_finite_inputs
import proofs.«146685_j32375463477418_1_alg».proof.Proof.KernelLaunch
import proofs.«146685_j32375463477418_1_alg».proof.Proof.KernelValue
import proofs.«146685_j32375463477418_1_alg».proof.Proof.RefValue
import Idealize.ShloMosaic.Adequacy
import Idealize.ShloMosaic.Init

noncomputable section

namespace Cert.Proof

open Idealize.ShloMosaic Idealize.SL.Sem

/-- The kernel program as printed runs and keeps its arguments: the generated frame. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network `Cert.Sage.Ref.sage` of the arguments in
    their result arrays: the kernel program's by the regions' values threaded through its host stretches
    (`Cert.Sage.KernelValue.result`), the reference's by its stages read layer by layer (`Cert.Sage.Ref.result_eq`). -/
theorem algebraic : Cert.algebraic_KernelIdeal_ReferenceIdeal := by
  intro m ρ m' ρ' _ hagree
  refine ⟨fun c => Cert.Sage.Ref.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.Sage.KernelValue.result m ρ c), (h c).2⟩)
      (Cert.KernelIdeal.Launch.run m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10⟩ := hagree c
    rw [Cert.ReferenceIdeal.Read.val_main_v83_eq, Cert.Sage.Ref.result_eq, g0, g1, g2, g3, g4, g5, g6, g7, g8, g9, g10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
